-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S512x1024 : Shape := ⟨2, ![512, 1024]⟩
abbrev S1024x1024 : Shape := ⟨2, ![1024, 1024]⟩
abbrev S1024 : Shape := ⟨1, ![1024]⟩

abbrev nBuf : Space → Nat
  | .hbm => 13
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v38 : BitVec 1 := Scalar.cmpi .eq arg1 c7_i32
  let v39 : BitVec 32 := Scalar.extui v38
  let c0_i32_17 : BitVec 32 := 0#32
  let v40 : BitVec 1 := Scalar.cmpi .ne v39 c0_i32_17
  v40

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1024_d0_w32 : S1024x1024.Iotas .tc 32 [0]
  iota_S1024x1024_d1_w32 : S1024x1024.Iotas .tc 32 [1]
  reduces_S1024x1024_S1024 : S1024x1024.Reduces [1] S1024
  shapeCasts_S1024_S1024x1 : S1024.ShapeCasts S1024x1
  reducesTo_S8192x1_S_d0_1 : S8192x1.ReducesTo [0, 1] S_
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .f32 = 32 ∨ (Rect.block (s := S8192x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x512 : Shape := ⟨2, ![8192, 512]⟩
abbrev S_ : Shape := ⟨0, ![]⟩
abbrev S8192 : Shape := ⟨1, ![8192]⟩
abbrev S512x8192 : Shape := ⟨2, ![512, 8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 42
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S_, .f32⟩
  | .hbm, ⟨3, _⟩ => ⟨S8192, .f32⟩
  | .hbm, ⟨4, _⟩ => ⟨S512x8192, .f32⟩
  | .hbm, ⟨5, _⟩ => ⟨S8192x8192, .f32⟩
  | .hbm, ⟨6, _⟩ => ⟨S8192x1, .f32⟩
  | .hbm, ⟨7, _⟩ => ⟨S1x8192, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S8192x8192, .i32⟩
  | .hbm, ⟨20, _⟩ => ⟨S8192x8192, .i32⟩
  | .hbm, ⟨21, _⟩ => ⟨S_, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_cst_7 : Ref sig .tc := ⟨.hbm, 40, rfl⟩
abbrev main_v28 : Ref sig .tc := ⟨.hbm, 41, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.Bits.Body.lean ====
/-
  One grid point of the nearest-neighbour kernel, run symbolically.

  The kernel visits the 8 × 8 grid of (row block i, column block j). At a point it holds, in six buffers, the row
  block and the column block of the points, the row block's squared lengths as a column, the column block's as a
  row, the output column of the row block, and a running-minimum column that lives across the points of a row
  block. At j = 0 it first fills the running minimum with +∞. At every point it replaces the running minimum by
  its entrywise minimum with the block's masked row minima (`step`). At j = 7 it also writes the output column
  from the running minimum (`emit`). Nothing else is written.

  Three runs, by where the point sits in its row of the grid: the first column block (`run_first`), a middle one
  (`run_mid`), the last (`run_last`). Each says: from the six buffers at given contents the body terminates with
  the four inputs as they were, the running minimum at `step` of what it was (of +∞ at the first block), and the
  output column untouched — or, at the last block, at `emit` of the new running minimum.
-/
import proofs.«112455_j6511170421442_1_alg».proof.Proof.Gen.Kernel.Launch
import proofs.«112455_j6511170421442_1_alg».proof.Proof.Gen.Kernel.Skeleton
import proofs.«112455_j6511170421442_1_alg».proof.Proof.Gen.Kernel.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is in the first column block (the test the body makes on its second grid coordinate). -/
abbrev condFirst (i : grid0.Coords) : Prop :=
  (Scalar.cmpi .ne (Scalar.extui (Scalar.cmpi .eq (BitVec.ofNat 32 (i 1).val) 0#32)) 0#32) = 1#1
/-- The point is in the last column block. -/
abbrev condLast (i : grid0.Coords) : Prop := k0_cond2 i = 1#1

/-- The running minimum before anything is folded in: +∞ everywhere. -/
def start : Vec F S1024x1 .f32 := k0_pay3 (F := F)

/-- The running minimum after a point: its entrywise minimum with the block's masked row minima. -/
def step (i : grid0.Coords) (x0 x1 : Vec F S1024x512 .f32) (x2 : Vec F S1024x1 .f32) (x3 : Vec F S1x1024 .f32)
    (s : Vec F S1024x1 .f32) : Vec F S1024x1 .f32 :=
  k0_pay1 (k0_pay4 i x0 x1 x2 x3 s)

/-- The output column written from a running minimum. -/
def emit (s : Vec F S1024x1 .f32) : Vec F S1024x1 .f32 := k0_pay2 s

/-- The body's loads and stores all go through the whole buffer: offsets zero. -/
theorem offs_zero : (![0, 0] : Fin 2 → ℕ) = fun _ => 0 := by
  funext a; match a with | ⟨0, _⟩ => rfl | ⟨1, _⟩ => rfl

/-- One store through the whole of a buffer leaves its payload, whatever the buffer held. -/
theorem read_one_store {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- A load through the whole of a buffer reads its contents. -/
theorem load_whole {S : Shape} {e : EltTy} {κ : Kind} {sp : Space} (a : Memref sig κ sp S e) (h : a.IsWhole)
    {off : Fin S.rank → ℕ} (hz : off = fun _ => 0) (inb : ∀ a, off a + S.size a ≤ S.size a) (x : S.Idx → Elt F e) :
    a.view.readAt (Elt F) (Rect.unit off S.size inb).toLoadRect (h.unread x) = x := by
  rw [View.readAt_eq_ld, h.read_unread, View.ld_unit_zero hz]

/-- A middle column block: the running minimum steps, nothing else changes. -/
theorem run_mid (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1024 .f32) (h5 : a5.IsWhole)
    (a6 : Memref sig .tc .vmem S1024x1 .f32) (h6 : a6.IsWhole) (a7 : Memref sig .tc .vmem S1024x1 .f32) (h7 : a7.IsWhole)
    (hc0 : ¬condFirst i) (hc1 : ¬condLast i)
    (x0 x1 : Vec F S1024x512 .f32) (x2 : Vec F S1024x1 .f32) (x3 : Vec F S1x1024 .f32) (y : Vec F S1024x1 .f32) (s : Vec F S1024x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare y ∗ owns (c : Thread nD τ) a7 fullShare s
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare y
            ∗ owns (c : Thread nD τ) a7 fullShare (step i x0 x1 x2 x3 s)) -∗ K ⟨⟩))
      ⊢ wp frame (wpE (defs₀ (F := F)) Variants.none c none) E (cc0__koleo_kernel i a2 h2 a3 h3 a4 h4 a5 h5 a6 h6 a7 h7) K := by
  simp only [cc0__koleo_kernel_eq_skeleton]; unfold cc0__koleo_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2
  obtain rfl := h5.eq_unread hf3; obtain rfl := h6.eq_unread hf4; obtain rfl := h7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr; swap; · iexact HS
  ipureintro
  refine (read_one_store a7.view _ offs_zero _ _).trans ?_
  unfold step
  sl_unfold_run_names
  rw [load_whole a2 h2 offs_zero, load_whole a3 h3 offs_zero, load_whole a4 h4 offs_zero, load_whole a5 h5 offs_zero, load_whole a7 h7 offs_zero]

/-- The last of several stores, through the whole of a buffer, leaves its payload. -/
theorem read_last_store {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self .., View.mem_set_unit_zero hz inb y⟩),
    View.canon_cons_unit_zero hz]

/-- The first column block: the running minimum is refilled with +∞ and then steps; nothing else changes. -/
theorem run_first (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1024 .f32) (h5 : a5.IsWhole)
    (a6 : Memref sig .tc .vmem S1024x1 .f32) (h6 : a6.IsWhole) (a7 : Memref sig .tc .vmem S1024x1 .f32) (h7 : a7.IsWhole)
    (hc0 : condFirst i) (hc1 : ¬condLast i)
    (x0 x1 : Vec F S1024x512 .f32) (x2 : Vec F S1024x1 .f32) (x3 : Vec F S1x1024 .f32) (y : Vec F S1024x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare y ∗ (∃ g, owns (c : Thread nD τ) a7 fullShare g)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare y
            ∗ owns (c : Thread nD τ) a7 fullShare (step i x0 x1 x2 x3 start)) -∗ K ⟨⟩))
      ⊢ wp frame (wpE (defs₀ (F := F)) Variants.none c none) E (cc0__koleo_kernel i a2 h2 a3 h3 a4 h4 a5 h5 a6 h6 a7 h7) K := by
  simp only [cc0__koleo_kernel_eq_skeleton]; unfold cc0__koleo_kernel_skel
  unfold owns
  iintro ⟨⟨%f0, %hf0, H0⟩, ⟨%f1, %hf1, H1⟩, ⟨%f2, %hf2, H2⟩, ⟨%f3, %hf3, H3⟩, ⟨%f4, %hf4, H4⟩, ⟨%g, %fs, -, HS⟩, Hk⟩
  obtain rfl := h2.eq_unread hf0; obtain rfl := h3.eq_unread hf1; obtain rfl := h4.eq_unread hf2
  obtain rfl := h5.eq_unread hf3; obtain rfl := h6.eq_unread hf4
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr; swap; · iexact HS
  ipureintro
  refine (read_last_store a7.view _ offs_zero _ _ _).trans ?_
  unfold step start
  sl_unfold_run_names
  rw [load_whole a2 h2 offs_zero, load_whole a3 h3 offs_zero, load_whole a4 h4 offs_zero, load_whole a5 h5 offs_zero,
    View.readCov_unit_zero (S := S1024x1) a7.view offs_zero]

/-- The last column block: the running minimum steps, and the output column is written from it. -/
theorem run_last (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1024 .f32) (h5 : a5.IsWhole)
    (a6 : Memref sig .tc .vmem S1024x1 .f32) (h6 : a6.IsWhole) (a7 : Memref sig .tc .vmem S1024x1 .f32) (h7 : a7.IsWhole)
    (hc0 : ¬condFirst i) (hc1 : condLast i)
    (x0 x1 : Vec F S1024x512 .f32) (x2 : Vec F S1024x1 .f32) (x3 : Vec F S1x1024 .f32) (s : Vec F S1024x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ y, owns (c : Thread nD τ) a6 fullShare y) ∗ owns (c : Thread nD τ) a7 fullShare s
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (emit (step i x0 x1 x2 x3 s))
            ∗ owns (c : Thread nD τ) a7 fullShare (step i x0 x1 x2 x3 s)) -∗ K ⟨⟩))
      ⊢ wp frame (wpE (defs₀ (F := F)) Variants.none c none) E (cc0__koleo_kernel i a2 h2 a3 h3 a4 h4 a5 h5 a6 h6 a7 h7) K := by
  simp only [cc0__koleo_kernel_eq_skeleton]; unfold cc0__koleo_kernel_skel
  unfold owns
  iintro ⟨⟨%f0, %hf0, H0⟩, ⟨%f1, %hf1, H1⟩, ⟨%f2, %hf2, H2⟩, ⟨%f3, %hf3, H3⟩, ⟨%y, %f4, -, H4⟩, ⟨%fs, %hfs, HS⟩, Hk⟩
  obtain rfl := h2.eq_unread hf0; obtain rfl := h3.eq_unread hf1; obtain rfl := h4.eq_unread hf2
  obtain rfl := h5.eq_unread hf3; obtain rfl := h7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr; swap; · iexact H4
    ipureintro
    refine (read_one_store a6.view _ offs_zero _ _).trans ?_
    unfold emit step
    sl_unfold_run_names
    rw [load_whole a2 h2 offs_zero, load_whole a3 h3 offs_zero, load_whole a4 h4 offs_zero, load_whole a5 h5 offs_zero, load_whole a7 h7 offs_zero,
      View.readCov_unit_zero (S := S1024x1) a7.view offs_zero]
  iexists _; isplitr; swap; · iexact HS
  ipureintro
  sl_unfold_run_names
  refine (read_one_store a7.view _ offs_zero _ _).trans ?_
  unfold step
  rw [load_whole a2 h2 offs_zero, load_whole a3 h3 offs_zero, load_whole a4 h4 offs_zero, load_whole a5 h5 offs_zero, load_whole a7 h7 offs_zero]

end Cert.Kernel.Hand

end
-- ==== Proof.Bits.Data.lean ====
/-
  The proof data of the kernel's one pipelined call, and the body's obligation at every grid point.

  The 64 grid points are visited in row-major order: point t is row block t / 8, column block t % 8. The four input
  windows (the row block and the column block of the points, the row block's squared lengths as a column, the
  column block's as a row) are never written by the body, so each staging buffer holds its window's block at every
  point (`iblk`). The running-minimum scratch is refilled at the first column block of each row block and stepped
  at every point: after point t it holds `accAt t`, defined by recursion on t. The output window is written only at
  the last column block of a row block, with `emit` of the running minimum there, and written back to its array at
  exactly those points; elsewhere its staging buffer is handed back untouched.

  The invariant between points: the scratch at what the point before left in it (at anything before the first
  point), and the generator register at some state. Both programs' two leading windows read ONE array (the points
  themselves); each holds half a share of it.
-/
import proofs.«112455_j6511170421442_1_alg».proof.Proof.Bits.Body

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the kernel call finds them -/

/-- Core `c`'s buffer contents when the kernel call is entered: after the five host operations before it (the squares,
    their row sums, the two reshapes). -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The buffers the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The running-minimum scratch: a whole buffer of the kernel's own. -/
abbrev scM : Memref sig .tc .vmem S1024x1 .f32 := Memref.whole cc0_scratch0

/-! ## The running minimum, point by point -/

/-- One step of the running minimum at point `t`, over the four input blocks there. -/
def stepAt (c : Dev nD) (t : Fin cfg0.N) (s : Vec F S1024x1 .f32) : Vec F S1024x1 .f32 :=
  step (grid0.coords t) (iblk m c 0 t) (iblk m c 1 t) (iblk m c 2 t) (iblk m c 3 t) s

/-- What the scratch holds after point `n`: one step from +∞ at the first column block of a row block, one step from
    what the point before left elsewhere. -/
def accAt (c : Dev nD) : (n : ℕ) → n < cfg0.N → Vec F S1024x1 .f32
  | 0, hn => stepAt m c ⟨0, hn⟩ start
  | n + 1, hn => stepAt m c ⟨n + 1, hn⟩ (if (n + 1) % 8 = 0 then start else accAt c n (Nat.lt_of_succ_lt hn))

/-- At the first column block of a row block the running minimum starts afresh. -/
theorem accAt_first (c : Dev nD) (t : Fin cfg0.N) (h : t.val % 8 = 0) : accAt m c t.val t.isLt = stepAt m c t start := by
  obtain ⟨n, hn⟩ := t
  cases n with
  | zero => rfl
  | succ n => show stepAt m c ⟨n + 1, hn⟩ (if (n + 1) % 8 = 0 then start else accAt m c n _) = _; rw [if_pos h]

/-- Elsewhere it steps from what the point before left. -/
theorem accAt_next (c : Dev nD) (t : Fin cfg0.N) (h : ¬t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => show stepAt m c ⟨n + 1, hn⟩ (if (n + 1) % 8 = 0 then start else accAt m c n _) = _; rw [if_neg h]; rfl

/-! ## The invariant between points -/

/-- Before point `n`: nothing named before the first point (the scratch at anything, the generator register at some
    state); afterwards the scratch at what point `n - 1` left. -/
def PhiS (c : Dev nD) : (n : ℕ) → n ≤ cfg0.N → sProp 𝕄
  | 0, _ => Pipeline.ΦA spec0 c
  | n + 1, hn => iprop(owns (c : Thread nD τ) scM fullShare (accAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (accAt m c n hn) ∗ (∃ r, prngReg c r)) := rfl

theorem PhiS_pos (c : Dev nD) (n : ℕ) (h : n ≤ cfg0.N) (hz : n ≠ 0) :
    PhiS m c n h = iprop(owns (c : Thread nD τ) scM fullShare (accAt m c (n - 1) (by omega)) ∗ (∃ r, prngReg c r)) := by
  cases n with
  | zero => exact absurd rfl hz
  | succ n => rfl

/-- The launch's invariant with the scratch as an owned buffer. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The proof data -/

/-- Core `c`'s proof data: the arrays as the call finds them; after the body each input's buffer at its block, the
    output's at `emit` of the running minimum; the invariant `PhiS`; nothing owed; the two windows on the points'
    array at half a share each, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => emit (accAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = emit (accAt m c t.val t.isLt) := by dsimp only [dats]

/-- The shares: half each for the two windows on the points' array, whole for the rest. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- An input's staging buffer holds its block at every point, fetched there or not: the body leaves it in place, and
    where it is not fetched the block index has not moved. -/
theorem before_0 (c : Dev nD) (t : Fin cfg0.N) (d) : (dats m 0 c).before 0 t d = iblk m c 0 t := by
  exact ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t := by
  exact ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t := by
  exact ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t := by
  exact ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- The body's first-column test in closed form: it holds at the points ≡ 0 (mod 8), decided over the grid. -/
theorem hcondFirst : ∀ t : Fin cfg0.N, condFirst (grid0.coords t) ↔ t.val % 8 = 0 :=
  (by decide +kernel : ∀ t : Fin grid0.N, condFirst (grid0.coords t) ↔ t.val % 8 = 0)
/-- The last-column test holds at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The output window is idle exactly where the last-column test fails. -/
theorem idle_4 (i : grid0.Coords) (h : ¬condLast i) : cfg0.idle 4 i = true := by
  show (!(k0_cond2 i == 1#1)) = true
  rw [Bool.not_eq_true', beq_eq_false_iff_ne]; exact h
theorem live_4 (i : grid0.Coords) (h : condLast i) : cfg0.idle 4 i = false := by
  show (!(k0_cond2 i == 1#1)) = false
  rw [Bool.not_eq_false', beq_iff_eq]; exact h
/-- And it is not written back off the last column block. -/
theorem noFlush_4 (t : Fin cfg0.N) (h : ¬t.val % 8 = 7) : (cfg0.win 4).flush t = false :=
  Bool.eq_false_iff.mpr fun hf => h ((flush0_4 t).mp hf)

/-- What the body is handed at point `t`: the invariant, what is owed, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- And what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point, by the column block the point is in. The four inputs' buffers hold their blocks and come
    back as they were. In the first column block the scratch arrives at anything (what the row block before left, or
    nothing named before the first point) and leaves at one step from +∞; elsewhere it arrives at what the point
    before left and leaves one step on. The output's buffer comes back untouched except in the last column block,
    where it leaves at `emit` of the running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  by_cases h0 : t.val % 8 = 0
  · -- the first column block: the scratch is refilled, the output's buffer comes back untouched
    have h7 : ¬t.val % 8 = 7 := by omega
    have hF : condFirst (grid0.coords t) := (hcondFirst t).mpr h0
    have hL : ¬condLast (grid0.coords t) := fun h => h7 ((hcondLast t).mp h)
    rw [Dat.leavesExact_idle (dats m 0 c) 4 t (idle_4 _ hL) (noFlush_4 t h7)]
    rw [accAt_first m c t h0]; unfold stepAt
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hz : t.val ≠ 0 := fun e => h0 (by rw [e])
    have hF : ¬condFirst (grid0.coords t) := fun h => h0 ((hcondFirst t).mp h)
    rw [accAt_next m c t h0]; unfold stepAt
    rw [PhiS_castSucc m c t, PhiS_pos m c _ _ hz]
    by_cases h7 : t.val % 8 = 7
    · -- the last column block: the scratch steps, and the output's buffer is written from it
      have hL : condLast (grid0.coords t) := (hcondLast t).mpr h7
      rw [show (dats m 0 c).leavesExact 4 t = owns (c : Thread nD τ) (ms4 t) fullShare ((dats m 0 c).after 4 t) from by
        unfold Dat.leavesExact; rw [live_4 _ hL], after_4]
      rw [accAt_next m c t h0]; unfold stepAt
      iintro ⟨⟨HS, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle column block: the scratch steps, the output's buffer comes back untouched
      have hL : ¬condLast (grid0.coords t) := fun h => h7 ((hcondLast t).mp h)
      rw [Dat.leavesExact_idle (dats m 0 c) 4 t (idle_4 _ hL) (noFlush_4 t h7)]
      iintro ⟨⟨HS, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) ((dats m 0 c).before 4 t d4) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The body obligation of the library, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The buffers after the call and at the end of the program -/

/-- The output column's array once the call has written every row block back. -/
def outArr (c : Dev nD) : (Proc.devRef (τ := τ) .tc main_v4 : DevRef τ sig).ty.Contents (Elt F) := (dats m 0 c).arrAt 4 cfg0.N

open Classical in
/-- Core `c`'s buffer contents when the call returns: as it was entered, but for the output column's array. -/
def Vmid (c : Dev nD) : Valuation τ sig (Elt F) := Function.update (V0 m c) (Proc.devRef .tc main_v4) (outArr m c)

/-- And at the end of the program: after the six host operations that average the output column. -/
def Vend (c : Dev nD) : Valuation τ sig (Elt F) := StableHlo.after hostOps1 (Vmid m c)

end Cert.Kernel.Hand

end
-- ==== Proof.Bits.Launch.lean ====
/-
  The whole program's run: the five host operations that square the points and sum the rows, the pipelined kernel
  call, the six host operations that average the output column.

  The program is read as three segments in order. Between segments a core holds every one of its unscoped buffers
  whole, at a valuation: the launch contents; then those after the first host operations (`V0`); then the same with
  the output column's array at what the call wrote back (`Vmid`); then those after the last host operations (`Vend`).
  At the call's entry the points' array, which two input windows read, is split into two half shares, one per
  window; at its exit the halves, still at the entry contents (an input array is never written), are joined again.
  The run ends with every unscoped buffer at `Vend`; in particular the argument array is as it was launched.
-/
import proofs.«112455_j6511170421442_1_alg».proof.Proof.Bits.Data
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations leave alone -/

/-- A buffer that is none of the five results of the first host operations is written by none of them. -/
theorem not_written0 (b : Ref sig .tc) (hb : b ≠ main_v0 ∧ b ≠ main_cst ∧ b ≠ main_v1 ∧ b ≠ main_v2 ∧ b ≠ main_v3) :
    ∀ op ∈ (hostOps0 (F := F)), Proc.devRef (τ := τ) .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer that is none of the six results of the last host operations is written by none of them. -/
theorem not_written1 (b : Ref sig .tc) (hb : b ≠ main_cst_0 ∧ b ≠ main_v5 ∧ b ≠ main_cst_1 ∧ b ≠ main_v6 ∧ b ≠ main_cst_2 ∧ b ≠ main_v7) :
    ∀ op ∈ (hostOps1 (F := F)), Proc.devRef (τ := τ) .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The launch's parameters -/

/-- No core owes another anything: no level is assigned. -/
abbrev launchPairs : GSem nD τ sig → Finset Unit := fun _ => ∅
abbrev launchLevels : GSem nD τ sig → Unit → ℕ := fun _ _ => 0
/-- The prefetched tables' admissible contents: no table. -/
abbrev launchAdm : (p : Fin 1) → (pcfgs (F := F) p).Adm := fun p => (cfgs p).toPCfg_adm

/-- The unscoped buffers of a core, as the set the host operations run within. -/
abbrev ucBufs : Finset (DevRef τ sig) := Pipeline.ucRefs τ sig

/-- What rides beside the buffers from segment to segment: that the core owes nothing, and its generator register at
    some state. -/
abbrev rides (c : Dev nD) : sProp 𝕄 :=
  iprop((∃ W, owes (c : Thread nD τ) (0 : CellTallies nD τ sig Unit) W) ∗ ∃ r, prngReg c r)

/-! ## The call's entry and exit: the unscoped buffers regrouped -/

/-- The four buffers behind the five windows' arrays, one by one. -/
theorem arrBufs_chain (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)) :=
  bigSep_eq_bigSepL_of_eq [main_arg0, main_v2, main_v3, main_v4] (by decide) (by decide) _

/-- The five windows' arrays, one by one: each a whole buffer; the two windows on the points' array at half a share
    each, the three others at the full share. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4)) := by
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  unfold Pipeline.Dat.arrays
  rw [bigSep_W0, share_0, share_1, share_2, share_3, share_4, h0, h2, h3, h4]

/-- ENTRY. The unscoped buffers as the first host operations leave them are the five windows' arrays at those contents,
    the points' array as two half shares, beside the nine buffers no window reads. -/
theorem entry_arrays (c : Dev nD) :
    (StableHlo.held (c : Thread nD τ) ucBufs (V0 m c) : sProp 𝕄)
      ⊢ iprop((dats m 0 c).arrays ((dats m 0 c).arrAt · 0) ∗ Pipeline.unscopedRest spec0 c (V m c)) := by
  rw [← Pipeline.unscopedBufs_held c (V0 m c), Pipeline.unscopedBufs_split₀ cfgs 0 winFacts₀0.arr_unscoped c, arrBufs_chain, arrays_chain]
  iintro ⟨⟨H0, H2, H3, H4⟩, HZ⟩
  ihave H01 := (pointsTo_share (PosShare.mem_left_op_right fullShare)).1 $$ H0
  icases H01 with ⟨H0l, H0r⟩
  isplitr [HZ]
  · isplitl [H0l]; · iexact H0l
    isplitl [H0r]; · iexact H0r
    isplitl [H2]; · iexact H2
    isplitl [H3]; · iexact H3
    iexact H4
  · iexact HZ

/-- The call changes one buffer only: every other is at `Vmid` what it was when the call was entered. -/
theorem Vmid_of_ne (c : Dev nD) (b : Ref sig .tc) (hb : b ≠ main_v4) : Vmid m c (Proc.devRef .tc b) = V m c b := by
  unfold Vmid
  rw [Function.update_of_ne (StableHlo.devRef_ne_of_ne hb)]

/-- The output column's array is at `Vmid` what the call wrote back. -/
theorem Vmid_v4 (c : Dev nD) : Vmid m c (Proc.devRef .tc main_v4) = (dats m 0 c).arrAt 4 cfg0.N := by
  unfold Vmid
  rw [Function.update_self]; rfl

/-- EXIT. The windows' arrays at their final contents, the two halves of the points' array joined, beside the nine
    other buffers, are the unscoped buffers at `Vmid`. -/
theorem exit_arrays (c : Dev nD) :
    iprop((dats m 0 c).arrays ((dats m 0 c).arrAt · cfg0.N) ∗ Pipeline.unscopedRest spec0 c (V m c))
      ⊢ (StableHlo.held (c : Thread nD τ) ucBufs (Vmid m c) : sProp 𝕄) := by
  rw [← Pipeline.unscopedBufs_held c (Vmid m c), Pipeline.unscopedBufs_split₀ cfgs 0 winFacts₀0.arr_unscoped c, arrBufs_chain, arrays_chain,
    unscopedRest0_eq, unscopedRest0_eq]
  rw [(dats m 0 c).arrAt_in 0 rfl cfg0.N, (dats m 0 c).arrAt_in 1 rfl cfg0.N, (dats m 0 c).arrAt_in 2 rfl cfg0.N, (dats m 0 c).arrAt_in 3 rfl cfg0.N,
    A_eq, A_eq, A_eq, A_eq]
  rw [Vmid_of_ne m c main_arg0 (by decide), Vmid_of_ne m c main_v2 (by decide), Vmid_of_ne m c main_v3 (by decide), Vmid_v4,
    Vmid_of_ne m c main_v0 (by decide), Vmid_of_ne m c main_cst (by decide), Vmid_of_ne m c main_v1 (by decide),
    Vmid_of_ne m c main_cst_0 (by decide), Vmid_of_ne m c main_v5 (by decide), Vmid_of_ne m c main_cst_1 (by decide),
    Vmid_of_ne m c main_v6 (by decide), Vmid_of_ne m c main_cst_2 (by decide), Vmid_of_ne m c main_v7 (by decide)]
  iintro ⟨⟨H0l, H0r, H2, H3, H4⟩, HZ⟩
  ihave H0 := (pointsTo_share (PosShare.mem_left_op_right fullShare)).2 $$ [H0l H0r]
  · isplitl [H0l]
    · iexact H0l
    · iexact H0r
  isplitr [HZ]
  · isplitl [H0]; · iexact H0
    isplitl [H2]; · iexact H2
    isplitl [H3]; · iexact H3
    iexact H4
  · iexact HZ

/-! ## The three segments -/

/-- The first host operations, over the unscoped buffers at the launch contents. -/
def seg0 : Pipeline.HostSeg (Name := ℕ) (U := UR sig nD τ) (pcfgs (F := F)) defs₀ Variants.none launchPairs launchLevels :=
  Pipeline.HostSeg.ofOps _ _ _ _ _ ucBufs hostOps0 (fun op h => Pipeline.sub_ucRefs op ((List.forall_iff_forall_mem.mp hostOps0_sub) op h))
    (by intro _ h; (repeat (cases h with | head => rfl | tail _ h => ?_)); exact nomatch h) (fun c b => m (c, b)) rides

/-- The last host operations, over the unscoped buffers as the call leaves them. -/
def seg1 : Pipeline.HostSeg (Name := ℕ) (U := UR sig nD τ) (pcfgs (F := F)) defs₀ Variants.none launchPairs launchLevels :=
  Pipeline.HostSeg.ofOps _ _ _ _ _ ucBufs hostOps1 (fun op h => Pipeline.sub_ucRefs op ((List.forall_iff_forall_mem.mp hostOps1_sub) op h))
    (by intro _ h; (repeat (cases h with | head => rfl | tail _ h => ?_)); exact nomatch h) (Vmid m) rides

set_option backward.isDefEq.respectTransparency.types false in
/-- The call: entered from the buffers at `V0`, the windows' arrays into the pipeline (the points' array halved), the
    generator register into the invariant, the nine other buffers around it; left with the buffers at `Vmid`. -/
def reg0 : Pipeline.RegionSeg (pcfgs (F := F)) launchAdm (dats m) () defs₀ Variants.none launchPairs launchLevels 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ launchPairs launchLevels 0 fun _ _ => rfl
  pre c := iprop(StableHlo.held (c : Thread nD τ) ucBufs (V0 m c) ∗ rides c)
  post c := iprop(StableHlo.held (c : Thread nD τ) ucBufs (Vmid m c) ∗ rides c)
  X c := iprop(∃ r, prngReg c r)
  Y c := iprop(∃ r, prngReg c r)
  Z c := Pipeline.unscopedRest spec0 c (V m c)
  hentry c := by
    iintro ⟨⟨Hh, HO, Hp⟩, -, -⟩
    ihave H := (entry_arrays m c) $$ Hh
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := (show _ ⊢ Pipeline.ΦA spec0 c by
    unfold Pipeline.ΦA; iintro ⟨Hp, -, Hr⟩
    isplitl [Hr] <;> iassumption).trans (Hand.hin m c)
  hout c := (Hand.hout m c).trans (by
    rw [Pipeline.ownSems0_none]; unfold Pipeline.ΦA
    iintro ⟨Hr, Hp⟩
    isplitl [Hp]; · iexact Hp
    isplitr; · iempintro
    iexact Hr)
  hexit c := by
    iintro ⟨Ha, HO, HY, HZ⟩
    ihave H := (exit_arrays m c) $$ [Ha HZ]
    · isplitl [Ha] <;> iassumption
    imodintro
    isplitl [H]; · iexact H
    isplitl [HO]
    · unfold Pipeline.Dat.owesAt Pipeline.owesWithin
      icases HO with ⟨%W, -, HO⟩; iexists W; iexact HO
    iexact HY

/-- The program as the list of the three. -/
abbrev launchSegs : List (Pipeline.Seg (pcfgs (F := F)) launchAdm (dats m) () defs₀ Variants.none launchPairs launchLevels) :=
  [.host (seg0 m), .region (reg0 m), .host (seg1 m)]

/-- What is held at the end: every unscoped buffer at `Vend`, and the generator register. -/
abbrev heldAtEnd (c : Dev nD) : sProp 𝕄 :=
  iprop(StableHlo.held (c : Thread nD τ) ucBufs (Vend m c) ∗ ∃ r, prngReg c r)

/-- An unscoped reference of the core is in the set the host operations run within. -/
theorem mem_ucR (b : Ref sig .tc) (hb : b.isScoped = false) : Proc.devRef (τ := τ) .tc b ∈ ucBufs :=
  Finset.mem_filter.mpr ⟨StableHlo.devRef_mem_tcRefs b, fun h' => Bool.false_ne_true (hb.symm.trans h')⟩

set_option backward.isDefEq.respectTransparency.types false in
/-- At the compiled mesh, for any float values, from any memory with zero counters: every weakly fair execution of the
    program terminates, nothing faulting, with every unscoped buffer of every core at `Vend`. -/
theorem run_main : θ_run defs (onTc (τ := τ) (main (F := F))) ⟨m, fun _ => 0, ρ⟩ (fun r => ∀ c : Dev nD, ∀ b : Ref sig .tc,
    b.isScoped = false → r.2.mem ((c.tc : Thread nD τ).loc b) = Vend m c (Proc.devRef .tc b)) :=
  Pipeline.θ_run_regions_kit (pcfgs (F := F)) launchAdm (dats m) () cellOf_inj emb₁ defs₀ Variants.none launchPairs launchLevels m ρ main (launchSegs m)
    (fun c Q => by rw [main_segs launchAdm (dats m) () Variants.none launchPairs launchLevels (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucBufs (fun b => m (c, b)) ∗ rides c)) (Tₙ := heldAtEnd m)
    (hch := ⟨fun _ => .rfl, fun _ => .rfl, fun _ => .rfl, fun c => by
      show iprop(StableHlo.held (c : Thread nD τ) ucBufs (StableHlo.after hostOps1 (Vmid m c)) ∗ rides c) ⊢ _
      iintro ⟨Hh, HO, Hp⟩
      isplitr [HO]
      · isplitl [Hh]
        · iexact Hh
        · iexact Hp
      · iexact HO⟩)
    (hinit := by
      refine Pipeline.initEach launchPairs launchLevels fun c => ?_
      rw [show unscopedBufs c (fun b => m ((c : Thread nD τ).loc b)) = StableHlo.held (c : Thread nD τ) ucBufs (fun b => m (c, b)) from Pipeline.unscopedBufs_held c (fun b => m (c, b))]
      iintro ⟨⟨Hh, -, HO, -, Hp, -⟩, -⟩
      imodintro
      isplitl [Hh]; · iexact Hh
      isplitl [HO]
      · iexists ∅; iexact HO
      · iexists _; iexact Hp)
    (QY := fun c s => ∀ b ∈ ucBufs, s.mem ((c : Thread nD τ).1, b) = Vend m c b)
    (hfin := fun c s' => by
      show iprop((bigSep ucBufs (fun b => ((((c : Thread nD τ).1, b) ↦{fullShare} Vend m c b : sProp 𝕄))) ∗ ∃ r, prngReg c r) ∗ SI s') ⊢ _
      iintro ⟨⟨Hh, -⟩, HSI⟩
      imodintro
      iapply (pointsTo_read_all ucBufs (fun b => ((c : Thread nD τ).1, b)) (fun b => Vend m c b) s')
      isplitl [Hh]
      · iexact Hh
      · iexact HSI)
    (hQ := fun s h c b hb => h c _ (mem_ucR b hb))

/-- No host operation writes the argument array, and the call only reads it: it ends as launched. -/
theorem Vend_arg0 (c : Dev nD) : Vend m c (Proc.devRef .tc main_arg0) = m ((c.tc : Thread nD τ).loc main_arg0) := by
  unfold Vend
  rw [StableHlo.after_of_forall_not_mem (b := Proc.devRef .tc main_arg0) hostOps1 (Vmid m c) (not_written1 main_arg0 (by decide))]
  unfold Vmid
  rw [Function.update_of_ne (StableHlo.devRef_ne_of_ne (by decide))]
  exact StableHlo.after_of_forall_not_mem (b := Proc.devRef .tc main_arg0) hostOps0 _ (not_written0 main_arg0 (by decide))

/-- The frame: the program runs to the end and leaves its argument array unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c main_arg0 rfl).trans (Vend_arg0 m c)) (run_main m ρ)

end Cert.Kernel.Hand

end
-- ==== Proof.Ideal.Body.lean ====
/-
  One grid point of the nearest-neighbour kernel, run symbolically.

  The kernel visits the 8 × 8 grid of (row block i, column block j). At a point it holds, in six buffers, the row
  block and the column block of the points, the row block's squared lengths as a column, the column block's as a
  row, the output column of the row block, and a running-minimum column that lives across the points of a row
  block. At j = 0 it first fills the running minimum with +∞. At every point it replaces the running minimum by
  its entrywise minimum with the block's masked row minima (`step`). At j = 7 it also writes the output column
  from the running minimum (`emit`). Nothing else is written.

  Three runs, by where the point sits in its row of the grid: the first column block (`run_first`), a middle one
  (`run_mid`), the last (`run_last`). Each says: from the six buffers at given contents the body terminates with
  the four inputs as they were, the running minimum at `step` of what it was (of +∞ at the first block), and the
  output column untouched — or, at the last block, at `emit` of the new running minimum.
-/
import proofs.«112455_j6511170421442_1_alg».proof.Proof.Gen.KernelIdeal.Launch
import proofs.«112455_j6511170421442_1_alg».proof.Proof.Gen.KernelIdeal.Skeleton
import proofs.«112455_j6511170421442_1_alg».proof.Proof.Gen.KernelIdeal.Points
import Idealize.ShloMosaic.Lib.Pipeline.FrameBody
import Idealize.ShloMosaic.Lib.Pipeline.FrameSuffix
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is in the first column block (the test the body makes on its second grid coordinate). -/
abbrev condFirst (i : grid0.Coords) : Prop :=
  (Scalar.cmpi .ne (Scalar.extui (Scalar.cmpi .eq (BitVec.ofNat 32 (i 1).val) 0#32)) 0#32) = 1#1
/-- The point is in the last column block. -/
abbrev condLast (i : grid0.Coords) : Prop := k0_cond2 i = 1#1

/-- The running minimum before anything is folded in: +∞ everywhere. -/
def start : Vec F S1024x1 .f32 := k0_pay3 (F := F)

/-- The running minimum after a point: its entrywise minimum with the block's masked row minima. -/
def step (i : grid0.Coords) (x0 x1 : Vec F S1024x512 .f32) (x2 : Vec F S1024x1 .f32) (x3 : Vec F S1x1024 .f32)
    (s : Vec F S1024x1 .f32) : Vec F S1024x1 .f32 :=
  k0_pay1 (k0_pay4 i x0 x1 x2 x3 s)

/-- The output column written from a running minimum. -/
def emit (s : Vec F S1024x1 .f32) : Vec F S1024x1 .f32 := k0_pay2 s

/-- The body's loads and stores all go through the whole buffer: offsets zero. -/
theorem offs_zero : (![0, 0] : Fin 2 → ℕ) = fun _ => 0 := by
  funext a; match a with | ⟨0, _⟩ => rfl | ⟨1, _⟩ => rfl

/-- One store through the whole of a buffer leaves its payload, whatever the buffer held. -/
theorem read_one_store {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  rw [View.read_writes_eq_canon v f _ (fun y => ⟨_, List.mem_singleton_self _, View.mem_set_unit_zero hz inb y⟩),
    View.canon_unit_zero hz]

/-- A load through the whole of a buffer reads its contents. -/
theorem load_whole {S : Shape} {e : EltTy} {κ : Kind} {sp : Space} (a : Memref sig κ sp S e) (h : a.IsWhole)
    {off : Fin S.rank → ℕ} (hz : off = fun _ => 0) (inb : ∀ a, off a + S.size a ≤ S.size a) (x : S.Idx → Elt F e) :
    a.view.readAt (Elt F) (Rect.unit off S.size inb).toLoadRect (h.unread x) = x := by
  rw [View.readAt_eq_ld, h.read_unread, View.ld_unit_zero hz]

/-- A middle column block: the running minimum steps, nothing else changes. -/
theorem run_mid (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1024 .f32) (h5 : a5.IsWhole)
    (a6 : Memref sig .tc .vmem S1024x1 .f32) (h6 : a6.IsWhole) (a7 : Memref sig .tc .vmem S1024x1 .f32) (h7 : a7.IsWhole)
    (hc0 : ¬condFirst i) (hc1 : ¬condLast i)
    (x0 x1 : Vec F S1024x512 .f32) (x2 : Vec F S1024x1 .f32) (x3 : Vec F S1x1024 .f32) (y : Vec F S1024x1 .f32) (s : Vec F S1024x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare y ∗ owns (c : Thread nD τ) a7 fullShare s
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare y
            ∗ owns (c : Thread nD τ) a7 fullShare (step i x0 x1 x2 x3 s)) -∗ K ⟨⟩))
      ⊢ wp frame (wpE (defs₀ (F := F)) Variants.none c none) E (cc0__koleo_kernel i a2 h2 a3 h3 a4 h4 a5 h5 a6 h6 a7 h7) K := by
  simp only [cc0__koleo_kernel_eq_skeleton]; unfold cc0__koleo_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := h2.eq_unread hf0; obtain rfl := h3.eq_unread hf1; obtain rfl := h4.eq_unread hf2
  obtain rfl := h5.eq_unread hf3; obtain rfl := h6.eq_unread hf4; obtain rfl := h7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr; swap; · iexact HS
  ipureintro
  refine (read_one_store a7.view _ offs_zero _ _).trans ?_
  unfold step
  sl_unfold_run_names
  rw [load_whole a2 h2 offs_zero, load_whole a3 h3 offs_zero, load_whole a4 h4 offs_zero, load_whole a5 h5 offs_zero, load_whole a7 h7 offs_zero]

/-- The last of several stores, through the whole of a buffer, leaves its payload. -/
theorem read_last_store {S : Shape} {e : EltTy} {κ : Kind} {sp : Space} (v : View sig κ sp S e) (f : v.ty.Contents (Elt F))
    {off : Fin S.rank → ℕ} (hz : off = fun _ => 0) (inb : ∀ a, off a + S.size a ≤ S.size a) (w : S.Idx → Elt F e)
    (L : List (View.Piece (Elt F) S e)) :
    v.read (Elt F) (v.writes (Elt F) f (⟨Rect.unit off S.size inb, w⟩ :: L)) = w := by
  rw [View.read_writes_eq_canon v f _ (fun y => ⟨_, List.mem_cons_self .., View.mem_set_unit_zero hz inb y⟩),
    View.canon_cons_unit_zero hz]

/-- The first column block: the running minimum is refilled with +∞ and then steps; nothing else changes. -/
theorem run_first (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1024 .f32) (h5 : a5.IsWhole)
    (a6 : Memref sig .tc .vmem S1024x1 .f32) (h6 : a6.IsWhole) (a7 : Memref sig .tc .vmem S1024x1 .f32) (h7 : a7.IsWhole)
    (hc0 : condFirst i) (hc1 : ¬condLast i)
    (x0 x1 : Vec F S1024x512 .f32) (x2 : Vec F S1024x1 .f32) (x3 : Vec F S1x1024 .f32) (y : Vec F S1024x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ owns (c : Thread nD τ) a6 fullShare y ∗ (∃ g, owns (c : Thread nD τ) a7 fullShare g)
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare y
            ∗ owns (c : Thread nD τ) a7 fullShare (step i x0 x1 x2 x3 start)) -∗ K ⟨⟩))
      ⊢ wp frame (wpE (defs₀ (F := F)) Variants.none c none) E (cc0__koleo_kernel i a2 h2 a3 h3 a4 h4 a5 h5 a6 h6 a7 h7) K := by
  simp only [cc0__koleo_kernel_eq_skeleton]; unfold cc0__koleo_kernel_skel
  unfold owns
  iintro ⟨⟨%f0, %hf0, H0⟩, ⟨%f1, %hf1, H1⟩, ⟨%f2, %hf2, H2⟩, ⟨%f3, %hf3, H3⟩, ⟨%f4, %hf4, H4⟩, ⟨%g, %fs, -, HS⟩, Hk⟩
  obtain rfl := h2.eq_unread hf0; obtain rfl := h3.eq_unread hf1; obtain rfl := h4.eq_unread hf2
  obtain rfl := h5.eq_unread hf3; obtain rfl := h6.eq_unread hf4
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]; · iexists _; isplitr; · ipureintro; exact hf4
                  iexact H4
  iexists _; isplitr; swap; · iexact HS
  ipureintro
  refine (read_last_store a7.view _ offs_zero _ _ _).trans ?_
  unfold step start
  sl_unfold_run_names
  rw [load_whole a2 h2 offs_zero, load_whole a3 h3 offs_zero, load_whole a4 h4 offs_zero, load_whole a5 h5 offs_zero,
    View.readCov_unit_zero (S := S1024x1) a7.view offs_zero]

/-- The last column block: the running minimum steps, and the output column is written from it. -/
theorem run_last (c : Dev nD) (i : grid0.Coords)
    (a2 : Memref sig .tc .vmem S1024x512 .f32) (h2 : a2.IsWhole) (a3 : Memref sig .tc .vmem S1024x512 .f32) (h3 : a3.IsWhole)
    (a4 : Memref sig .tc .vmem S1024x1 .f32) (h4 : a4.IsWhole) (a5 : Memref sig .tc .vmem S1x1024 .f32) (h5 : a5.IsWhole)
    (a6 : Memref sig .tc .vmem S1024x1 .f32) (h6 : a6.IsWhole) (a7 : Memref sig .tc .vmem S1024x1 .f32) (h7 : a7.IsWhole)
    (hc0 : ¬condFirst i) (hc1 : condLast i)
    (x0 x1 : Vec F S1024x512 .f32) (x2 : Vec F S1024x1 .f32) (x3 : Vec F S1x1024 .f32) (s : Vec F S1024x1 .f32)
    (E : Set ℕ) (K : PUnit → sProp 𝕄) :
    iprop(owns (c : Thread nD τ) a2 fullShare x0 ∗ owns (c : Thread nD τ) a3 fullShare x1 ∗ owns (c : Thread nD τ) a4 fullShare x2
        ∗ owns (c : Thread nD τ) a5 fullShare x3 ∗ (∃ y, owns (c : Thread nD τ) a6 fullShare y) ∗ owns (c : Thread nD τ) a7 fullShare s
        ∗ (iprop(owns (c : Thread nD τ) a2 fullShare x0 ∗ owns (c : Thread nD τ) a3 fullShare x1 ∗ owns (c : Thread nD τ) a4 fullShare x2
            ∗ owns (c : Thread nD τ) a5 fullShare x3 ∗ owns (c : Thread nD τ) a6 fullShare (emit (step i x0 x1 x2 x3 s))
            ∗ owns (c : Thread nD τ) a7 fullShare (step i x0 x1 x2 x3 s)) -∗ K ⟨⟩))
      ⊢ wp frame (wpE (defs₀ (F := F)) Variants.none c none) E (cc0__koleo_kernel i a2 h2 a3 h3 a4 h4 a5 h5 a6 h6 a7 h7) K := by
  simp only [cc0__koleo_kernel_eq_skeleton]; unfold cc0__koleo_kernel_skel
  unfold owns
  iintro ⟨⟨%f0, %hf0, H0⟩, ⟨%f1, %hf1, H1⟩, ⟨%f2, %hf2, H2⟩, ⟨%f3, %hf3, H3⟩, ⟨%y, %f4, -, H4⟩, ⟨%fs, %hfs, HS⟩, Hk⟩
  obtain rfl := h2.eq_unread hf0; obtain rfl := h3.eq_unread hf1; obtain rfl := h4.eq_unread hf2
  obtain rfl := h5.eq_unread hf3; obtain rfl := h7.eq_unread hfs
  sl_exec (disch := first | exact hc0 | exact hc1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]; · iexists _; isplitr; · ipureintro; exact hf3
                  iexact H3
  isplitl [H4]
  · iexists _; isplitr; swap; · iexact H4
    ipureintro
    refine (read_one_store a6.view _ offs_zero _ _).trans ?_
    unfold emit step
    sl_unfold_run_names
    rw [load_whole a2 h2 offs_zero, load_whole a3 h3 offs_zero, load_whole a4 h4 offs_zero, load_whole a5 h5 offs_zero, load_whole a7 h7 offs_zero,
      View.readCov_unit_zero (S := S1024x1) a7.view offs_zero]
  iexists _; isplitr; swap; · iexact HS
  ipureintro
  sl_unfold_run_names
  refine (read_one_store a7.view _ offs_zero _ _).trans ?_
  unfold step
  rw [load_whole a2 h2 offs_zero, load_whole a3 h3 offs_zero, load_whole a4 h4 offs_zero, load_whole a5 h5 offs_zero, load_whole a7 h7 offs_zero]

end Cert.KernelIdeal.Hand

end
-- ==== Proof.Ideal.Data.lean ====
/-
  The proof data of the kernel's one pipelined call, and the body's obligation at every grid point.

  The 64 grid points are visited in row-major order: point t is row block t / 8, column block t % 8. The four input
  windows (the row block and the column block of the points, the row block's squared lengths as a column, the
  column block's as a row) are never written by the body, so each staging buffer holds its window's block at every
  point (`iblk`). The running-minimum scratch is refilled at the first column block of each row block and stepped
  at every point: after point t it holds `accAt t`, defined by recursion on t. The output window is written only at
  the last column block of a row block, with `emit` of the running minimum there, and written back to its array at
  exactly those points; elsewhere its staging buffer is handed back untouched.

  The invariant between points: the scratch at what the point before left in it (at anything before the first
  point), and the generator register at some state. Both programs' two leading windows read ONE array (the points
  themselves); each holds half a share of it.
-/
import proofs.«112455_j6511170421442_1_alg».proof.Proof.Ideal.Body

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The arrays as the kernel call finds them -/

/-- Core `c`'s buffer contents when the kernel call is entered: after the five host operations before it (the squares,
    their row sums, the two reshapes). -/
abbrev V0 (c : Dev nD) : Valuation τ sig (Elt F) := StableHlo.after hostOps0 (fun b => m (c, b))
/-- The same read at a reference of the core. -/
abbrev V (c : Dev nD) (b : Ref sig .tc) : Buf (Elt F) ((c : Thread nD τ).loc b) := V0 m c (Proc.devRef .tc b)

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The buffers the body is called with -/

abbrev ms0 (t : Fin cfg0.N) : Memref sig .tc .vmem S1024x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
/-- The running-minimum scratch: a whole buffer of the kernel's own. -/
abbrev scM : Memref sig .tc .vmem S1024x1 .f32 := Memref.whole cc0_scratch0

/-! ## The running minimum, point by point -/

/-- One step of the running minimum at point `t`, over the four input blocks there. -/
def stepAt (c : Dev nD) (t : Fin cfg0.N) (s : Vec F S1024x1 .f32) : Vec F S1024x1 .f32 :=
  step (grid0.coords t) (iblk m c 0 t) (iblk m c 1 t) (iblk m c 2 t) (iblk m c 3 t) s

/-- What the scratch holds after point `n`: one step from +∞ at the first column block of a row block, one step from
    what the point before left elsewhere. -/
def accAt (c : Dev nD) : (n : ℕ) → n < cfg0.N → Vec F S1024x1 .f32
  | 0, hn => stepAt m c ⟨0, hn⟩ start
  | n + 1, hn => stepAt m c ⟨n + 1, hn⟩ (if (n + 1) % 8 = 0 then start else accAt c n (Nat.lt_of_succ_lt hn))

/-- At the first column block of a row block the running minimum starts afresh. -/
theorem accAt_first (c : Dev nD) (t : Fin cfg0.N) (h : t.val % 8 = 0) : accAt m c t.val t.isLt = stepAt m c t start := by
  obtain ⟨n, hn⟩ := t
  cases n with
  | zero => rfl
  | succ n => show stepAt m c ⟨n + 1, hn⟩ (if (n + 1) % 8 = 0 then start else accAt m c n _) = _; rw [if_pos h]

/-- Elsewhere it steps from what the point before left. -/
theorem accAt_next (c : Dev nD) (t : Fin cfg0.N) (h : ¬t.val % 8 = 0) :
    accAt m c t.val t.isLt = stepAt m c t (accAt m c (t.val - 1) (Nat.lt_of_le_of_lt (Nat.sub_le _ _) t.isLt)) := by
  obtain ⟨n, hn⟩ := t
  cases n with
  | zero => exact absurd (Nat.zero_mod _) h
  | succ n => show stepAt m c ⟨n + 1, hn⟩ (if (n + 1) % 8 = 0 then start else accAt m c n _) = _; rw [if_neg h]; rfl

/-! ## The invariant between points -/

/-- Before point `n`: nothing named before the first point (the scratch at anything, the generator register at some
    state); afterwards the scratch at what point `n - 1` left. -/
def PhiS (c : Dev nD) : (n : ℕ) → n ≤ cfg0.N → sProp 𝕄
  | 0, _ => Pipeline.ΦA spec0 c
  | n + 1, hn => iprop(owns (c : Thread nD τ) scM fullShare (accAt m c n hn) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(owns (c : Thread nD τ) scM fullShare (accAt m c n hn) ∗ (∃ r, prngReg c r)) := rfl

theorem PhiS_pos (c : Dev nD) (n : ℕ) (h : n ≤ cfg0.N) (hz : n ≠ 0) :
    PhiS m c n h = iprop(owns (c : Thread nD τ) scM fullShare (accAt m c (n - 1) (by omega)) ∗ (∃ r, prngReg c r)) := by
  cases n with
  | zero => exact absurd rfl hz
  | succ n => rfl

/-- The launch's invariant with the scratch as an owned buffer. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-! ## The proof data -/

/-- Core `c`'s proof data: the arrays as the call finds them; after the body each input's buffer at its block, the
    output's at `emit` of the running minimum; the invariant `PhiS`; nothing owed; the two windows on the points'
    array at half a share each, the others whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => emit (accAt m c t.val t.isLt)
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = emit (accAt m c t.val t.isLt) := by dsimp only [dats]

/-- The shares: half each for the two windows on the points' array, whole for the rest. -/
theorem share_0 (c : Dev nD) : (dats m 0 c).share 0 = fullShare.left := rfl
theorem share_1 (c : Dev nD) : (dats m 0 c).share 1 = fullShare.right := rfl
theorem share_2 (c : Dev nD) : (dats m 0 c).share 2 = fullShare := rfl
theorem share_3 (c : Dev nD) : (dats m 0 c).share 3 = fullShare := rfl
theorem share_4 (c : Dev nD) : (dats m 0 c).share 4 = fullShare := rfl

/-- An input's staging buffer holds its block at every point, fetched there or not: the body leaves it in place, and
    where it is not fetched the block index has not moved. -/
theorem before_0 (c : Dev nD) (t : Fin cfg0.N) (d) : (dats m 0 c).before 0 t d = iblk m c 0 t := by
  exact ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t := by
  exact ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t := by
  exact ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t := by
  exact ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)

/-! ## The body obligation -/

/-- The body's first-column test in closed form: it holds at the points ≡ 0 (mod 8), decided over the grid. -/
theorem hcondFirst : ∀ t : Fin cfg0.N, condFirst (grid0.coords t) ↔ t.val % 8 = 0 :=
  (by decide +kernel : ∀ t : Fin grid0.N, condFirst (grid0.coords t) ↔ t.val % 8 = 0)
/-- The last-column test holds at the points ≡ 7 (mod 8). -/
theorem hcondLast : ∀ t : Fin cfg0.N, condLast (grid0.coords t) ↔ t.val % 8 = 7 :=
  (by decide +kernel : ∀ t : Fin grid0.N, condLast (grid0.coords t) ↔ t.val % 8 = 7)

/-- The output window is idle exactly where the last-column test fails. -/
theorem idle_4 (i : grid0.Coords) (h : ¬condLast i) : cfg0.idle 4 i = true := by
  show (!(k0_cond2 i == 1#1)) = true
  rw [Bool.not_eq_true', beq_eq_false_iff_ne]; exact h
theorem live_4 (i : grid0.Coords) (h : condLast i) : cfg0.idle 4 i = false := by
  show (!(k0_cond2 i == 1#1)) = false
  rw [Bool.not_eq_false', beq_iff_eq]; exact h
/-- And it is not written back off the last column block. -/
theorem noFlush_4 (t : Fin cfg0.N) (h : ¬t.val % 8 = 7) : (cfg0.win 4).flush t = false :=
  Bool.eq_false_iff.mpr fun hf => h ((flush0_4 t).mp hf)

/-- What the body is handed at point `t`: the invariant, what is owed, and every window's current buffer. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- And what it hands back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4800000 in
/-- The body at any point, by the column block the point is in. The four inputs' buffers hold their blocks and come
    back as they were. In the first column block the scratch arrives at anything (what the row block before left, or
    nothing named before the first point) and leaves at one step from +∞; elsewhere it arrives at what the point
    before left and leaves one step on. The output's buffer comes back untouched except in the last column block,
    where it leaves at `emit` of the running minimum. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0 t) fullShare ((dats m 0 c).after 0 t) from rfl, after_0]
  rw [show (dats m 0 c).leavesExact 1 t = owns (c : Thread nD τ) (ms1 t) fullShare ((dats m 0 c).after 1 t) from rfl, after_1]
  rw [show (dats m 0 c).leavesExact 2 t = owns (c : Thread nD τ) (ms2 t) fullShare ((dats m 0 c).after 2 t) from rfl, after_2]
  rw [show (dats m 0 c).leavesExact 3 t = owns (c : Thread nD τ) (ms3 t) fullShare ((dats m 0 c).after 3 t) from rfl, after_3]
  by_cases h0 : t.val % 8 = 0
  · -- the first column block: the scratch is refilled, the output's buffer comes back untouched
    have h7 : ¬t.val % 8 = 7 := by omega
    have hF : condFirst (grid0.coords t) := (hcondFirst t).mpr h0
    have hL : ¬condLast (grid0.coords t) := fun h => h7 ((hcondLast t).mp h)
    rw [Dat.leavesExact_idle (dats m 0 c) 4 t (idle_4 _ hL) (noFlush_4 t h7)]
    rw [accAt_first m c t h0]; unfold stepAt
    by_cases hz : t.val = 0
    · rw [PhiS_castSucc m c t, PhiS_zero m c _ _ hz, PhiA_eq]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS_castSucc m c t, PhiS_pos m c _ _ hz]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) ((dats m 0 c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hz : t.val ≠ 0 := fun e => h0 (by rw [e])
    have hF : ¬condFirst (grid0.coords t) := fun h => h0 ((hcondFirst t).mp h)
    rw [accAt_next m c t h0]; unfold stepAt
    rw [PhiS_castSucc m c t, PhiS_pos m c _ _ hz]
    by_cases h7 : t.val % 8 = 7
    · -- the last column block: the scratch steps, and the output's buffer is written from it
      have hL : condLast (grid0.coords t) := (hcondLast t).mpr h7
      rw [show (dats m 0 c).leavesExact 4 t = owns (c : Thread nD τ) (ms4 t) fullShare ((dats m 0 c).after 4 t) from by
        unfold Dat.leavesExact; rw [live_4 _ hL], after_4]
      rw [accAt_next m c t h0]; unfold stepAt
      iintro ⟨⟨HS, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle column block: the scratch steps, the output's buffer comes back untouched
      have hL : ¬condLast (grid0.coords t) := fun h => h7 ((hcondLast t).mp h)
      rw [Dat.leavesExact_idle (dats m 0 c) 4 t (idle_4 _ hL) (noFlush_4 t h7)]
      iintro ⟨⟨HS, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM (Memref.isWhole_whole _) hF hL (iblk m c 0 t) (iblk m c 1 t) (iblk m c 2 t) (iblk m c 3 t) ((dats m 0 c).before 4 t d4) (accAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The body obligation of the library, at every point. -/
theorem body_obligation (c : Dev nD) : BodyObligation (dats (F := F) m 0 c) (defs₀ (F := F)) Variants.none () Set.univ := fun t => by
  rw [bigSep_W0, bigSep_W0]
  exact sound_body m c t

/-- What the launch hands the call is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back, the scratch's contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 64 := N_0; omega), PhiA_eq]
  iintro ⟨HS, Hg⟩
  isplitl [HS]
  · iexists _; iexact HS
  iexact Hg

/-! ## The buffers after the call and at the end of the program -/

/-- The output column's array once the call has written every row block back. -/
def outArr (c : Dev nD) : (Proc.devRef (τ := τ) .tc main_v4 : DevRef τ sig).ty.Contents (Elt F) := (dats m 0 c).arrAt 4 cfg0.N

open Classical in
/-- Core `c`'s buffer contents when the call returns: as it was entered, but for the output column's array. -/
def Vmid (c : Dev nD) : Valuation τ sig (Elt F) := Function.update (V0 m c) (Proc.devRef .tc main_v4) (outArr m c)

/-- And at the end of the program: after the six host operations that average the output column. -/
def Vend (c : Dev nD) : Valuation τ sig (Elt F) := StableHlo.after hostOps1 (Vmid m c)

end Cert.KernelIdeal.Hand

end
-- ==== Proof.Ideal.Launch.lean ====
/-
  The whole program's run: the five host operations that square the points and sum the rows, the pipelined kernel
  call, the six host operations that average the output column.

  The program is read as three segments in order. Between segments a core holds every one of its unscoped buffers
  whole, at a valuation: the launch contents; then those after the first host operations (`V0`); then the same with
  the output column's array at what the call wrote back (`Vmid`); then those after the last host operations (`Vend`).
  At the call's entry the points' array, which two input windows read, is split into two half shares, one per
  window; at its exit the halves, still at the entry contents (an input array is never written), are joined again.
  The run ends with every unscoped buffer at `Vend`; in particular the argument array is as it was launched.
-/
import proofs.«112455_j6511170421442_1_alg».proof.Proof.Ideal.Data
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the host operations leave alone -/

/-- A buffer that is none of the five results of the first host operations is written by none of them. -/
theorem not_written0 (b : Ref sig .tc) (hb : b ≠ main_v0 ∧ b ≠ main_cst ∧ b ≠ main_v1 ∧ b ≠ main_v2 ∧ b ≠ main_v3) :
    ∀ op ∈ (hostOps0 (F := F)), Proc.devRef (τ := τ) .tc b ∉ op.writes := by
  obtain ⟨h0, h1, h2, h3, h4⟩ := hb
  intro op hop
  simp only [List.mem_cons, List.mem_nil_iff, or_false] at hop
  rcases hop with rfl | rfl | rfl | rfl | rfl <;>
    simp only [StableHlo.unary_writes, StableHlo.binary_writes, StableHlo.nullary_writes, StableHlo.reshape_writes, Finset.mem_singleton] <;>
    exact StableHlo.devRef_ne_of_ne ‹_›

/-- A buffer that is none of the six results of the last host operations is written by none of them. -/
theorem not_written1 (b : Ref sig .tc) (hb : b ≠ main_cst_0 ∧ b ≠ main_v5 ∧ b ≠ main_cst_1 ∧ b ≠ main_v6 ∧ b ≠ main_cst_2 ∧ b ≠ main_v7) :
    ∀ op ∈ (hostOps1 (F := F)), Proc.devRef (τ := τ) .tc b ∉ op.writes := by
  obtain ⟨h0, h1, h2, h3, h4, h5⟩ := hb
  intro op hop
  simp only [List.mem_cons, List.mem_nil_iff, or_false] at hop
  rcases hop with rfl | rfl | rfl | rfl | rfl | rfl <;>
    simp only [StableHlo.unary_writes, StableHlo.binary_writes, StableHlo.nullary_writes, StableHlo.reshape_writes, Finset.mem_singleton] <;>
    exact StableHlo.devRef_ne_of_ne ‹_›

/-! ## The launch's parameters -/

/-- No core owes another anything: no level is assigned. -/
abbrev launchPairs : GSem nD τ sig → Finset Unit := fun _ => ∅
abbrev launchLevels : GSem nD τ sig → Unit → ℕ := fun _ _ => 0
/-- The prefetched tables' admissible contents: no table. -/
abbrev launchAdm : (p : Fin 1) → (pcfgs (F := F) p).Adm := fun p => (cfgs p).toPCfg_adm

/-- The unscoped buffers of a core, as the set the host operations run within. -/
abbrev ucBufs : Finset (DevRef τ sig) := Pipeline.ucRefs τ sig

/-- What rides beside the buffers from segment to segment: that the core owes nothing, and its generator register at
    some state. -/
abbrev rides (c : Dev nD) : sProp 𝕄 :=
  iprop((∃ W, owes (c : Thread nD τ) (0 : CellTallies nD τ sig Unit) W) ∗ ∃ r, prngReg c r)

/-! ## The call's entry and exit: the unscoped buffers regrouped -/

/-- The four buffers behind the five windows' arrays, one by one. -/
theorem arrBufs_chain (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v4) ↦{fullShare} W main_v4)) :=
  bigSep_eq_bigSepL_of_eq [main_arg0, main_v2, main_v3, main_v4] (by decide) (by decide) _

/-- The five windows' arrays, one by one: each a whole buffer; the two windows on the points' array at half a share
    each, the three others at the full share. -/
theorem arrays_chain (c : Dev nD) (G : (w : Fin cfg0.W) → Buf (Elt F) ((cfg0.win w).arr.view.loc (c : Thread nD τ))) :
    ((dats m 0 c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v4) ↦{fullShare} G 4)) := by
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  unfold Pipeline.Dat.arrays
  rw [bigSep_W0, share_0, share_1, share_2, share_3, share_4, h0, h2, h3, h4]

/-- ENTRY. The unscoped buffers as the first host operations leave them are the five windows' arrays at those contents,
    the points' array as two half shares, beside the nine buffers no window reads. -/
theorem entry_arrays (c : Dev nD) :
    (StableHlo.held (c : Thread nD τ) ucBufs (V0 m c) : sProp 𝕄)
      ⊢ iprop((dats m 0 c).arrays ((dats m 0 c).arrAt · 0) ∗ Pipeline.unscopedRest spec0 c (V m c)) := by
  rw [← Pipeline.unscopedBufs_held c (V0 m c), Pipeline.unscopedBufs_split₀ cfgs 0 winFacts₀0.arr_unscoped c, arrBufs_chain, arrays_chain]
  iintro ⟨⟨H0, H2, H3, H4⟩, HZ⟩
  ihave H01 := (pointsTo_share (PosShare.mem_left_op_right fullShare)).1 $$ H0
  icases H01 with ⟨H0l, H0r⟩
  isplitr [HZ]
  · isplitl [H0l]; · iexact H0l
    isplitl [H0r]; · iexact H0r
    isplitl [H2]; · iexact H2
    isplitl [H3]; · iexact H3
    iexact H4
  · iexact HZ

/-- The call changes one buffer only: every other is at `Vmid` what it was when the call was entered. -/
theorem Vmid_of_ne (c : Dev nD) (b : Ref sig .tc) (hb : b ≠ main_v4) : Vmid m c (Proc.devRef .tc b) = V m c b := by
  unfold Vmid
  rw [Function.update_of_ne (StableHlo.devRef_ne_of_ne hb)]

/-- The output column's array is at `Vmid` what the call wrote back. -/
theorem Vmid_v4 (c : Dev nD) : Vmid m c (Proc.devRef .tc main_v4) = (dats m 0 c).arrAt 4 cfg0.N := by
  unfold Vmid
  rw [Function.update_self]; rfl

/-- EXIT. The windows' arrays at their final contents, the two halves of the points' array joined, beside the nine
    other buffers, are the unscoped buffers at `Vmid`. -/
theorem exit_arrays (c : Dev nD) :
    iprop((dats m 0 c).arrays ((dats m 0 c).arrAt · cfg0.N) ∗ Pipeline.unscopedRest spec0 c (V m c))
      ⊢ (StableHlo.held (c : Thread nD τ) ucBufs (Vmid m c) : sProp 𝕄) := by
  rw [← Pipeline.unscopedBufs_held c (Vmid m c), Pipeline.unscopedBufs_split₀ cfgs 0 winFacts₀0.arr_unscoped c, arrBufs_chain, arrays_chain,
    unscopedRest0_eq, unscopedRest0_eq]
  rw [(dats m 0 c).arrAt_in 0 rfl cfg0.N, (dats m 0 c).arrAt_in 1 rfl cfg0.N, (dats m 0 c).arrAt_in 2 rfl cfg0.N, (dats m 0 c).arrAt_in 3 rfl cfg0.N,
    A_eq, A_eq, A_eq, A_eq]
  rw [Vmid_of_ne m c main_arg0 (by decide), Vmid_of_ne m c main_v2 (by decide), Vmid_of_ne m c main_v3 (by decide), Vmid_v4,
    Vmid_of_ne m c main_v0 (by decide), Vmid_of_ne m c main_cst (by decide), Vmid_of_ne m c main_v1 (by decide),
    Vmid_of_ne m c main_cst_0 (by decide), Vmid_of_ne m c main_v5 (by decide), Vmid_of_ne m c main_cst_1 (by decide),
    Vmid_of_ne m c main_v6 (by decide), Vmid_of_ne m c main_cst_2 (by decide), Vmid_of_ne m c main_v7 (by decide)]
  iintro ⟨⟨H0l, H0r, H2, H3, H4⟩, HZ⟩
  ihave H0 := (pointsTo_share (PosShare.mem_left_op_right fullShare)).2 $$ [H0l H0r]
  · isplitl [H0l]
    · iexact H0l
    · iexact H0r
  isplitr [HZ]
  · isplitl [H0]; · iexact H0
    isplitl [H2]; · iexact H2
    isplitl [H3]; · iexact H3
    iexact H4
  · iexact HZ

/-! ## The three segments -/

/-- The first host operations, over the unscoped buffers at the launch contents. -/
def seg0 : Pipeline.HostSeg (Name := ℕ) (U := UR sig nD τ) (pcfgs (F := F)) defs₀ Variants.none launchPairs launchLevels :=
  Pipeline.HostSeg.ofOps _ _ _ _ _ ucBufs hostOps0 (fun op h => Pipeline.sub_ucRefs op ((List.forall_iff_forall_mem.mp hostOps0_sub) op h))
    (by intro _ h; (repeat (cases h with | head => rfl | tail _ h => ?_)); exact nomatch h) (fun c b => m (c, b)) rides

/-- The last host operations, over the unscoped buffers as the call leaves them. -/
def seg1 : Pipeline.HostSeg (Name := ℕ) (U := UR sig nD τ) (pcfgs (F := F)) defs₀ Variants.none launchPairs launchLevels :=
  Pipeline.HostSeg.ofOps _ _ _ _ _ ucBufs hostOps1 (fun op h => Pipeline.sub_ucRefs op ((List.forall_iff_forall_mem.mp hostOps1_sub) op h))
    (by intro _ h; (repeat (cases h with | head => rfl | tail _ h => ?_)); exact nomatch h) (Vmid m) rides

set_option backward.isDefEq.respectTransparency.types false in
/-- The call: entered from the buffers at `V0`, the windows' arrays into the pipeline (the points' array halved), the
    generator register into the invariant, the nine other buffers around it; left with the buffers at `Vmid`. -/
def reg0 : Pipeline.RegionSeg (pcfgs (F := F)) launchAdm (dats m) () defs₀ Variants.none launchPairs launchLevels 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ launchPairs launchLevels 0 fun _ _ => rfl
  pre c := iprop(StableHlo.held (c : Thread nD τ) ucBufs (V0 m c) ∗ rides c)
  post c := iprop(StableHlo.held (c : Thread nD τ) ucBufs (Vmid m c) ∗ rides c)
  X c := iprop(∃ r, prngReg c r)
  Y c := iprop(∃ r, prngReg c r)
  Z c := Pipeline.unscopedRest spec0 c (V m c)
  hentry c := by
    iintro ⟨⟨Hh, HO, Hp⟩, -, -⟩
    ihave H := (entry_arrays m c) $$ Hh
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact HZ
  hin c := (show _ ⊢ Pipeline.ΦA spec0 c by
    unfold Pipeline.ΦA; iintro ⟨Hp, -, Hr⟩
    isplitl [Hr] <;> iassumption).trans (Hand.hin m c)
  hout c := (Hand.hout m c).trans (by
    rw [Pipeline.ownSems0_none]; unfold Pipeline.ΦA
    iintro ⟨Hr, Hp⟩
    isplitl [Hp]; · iexact Hp
    isplitr; · iempintro
    iexact Hr)
  hexit c := by
    iintro ⟨Ha, HO, HY, HZ⟩
    ihave H := (exit_arrays m c) $$ [Ha HZ]
    · isplitl [Ha] <;> iassumption
    imodintro
    isplitl [H]; · iexact H
    isplitl [HO]
    · unfold Pipeline.Dat.owesAt Pipeline.owesWithin
      icases HO with ⟨%W, -, HO⟩; iexists W; iexact HO
    iexact HY

/-- The program as the list of the three. -/
abbrev launchSegs : List (Pipeline.Seg (pcfgs (F := F)) launchAdm (dats m) () defs₀ Variants.none launchPairs launchLevels) :=
  [.host (seg0 m), .region (reg0 m), .host (seg1 m)]

/-- What is held at the end: every unscoped buffer at `Vend`, and the generator register. -/
abbrev heldAtEnd (c : Dev nD) : sProp 𝕄 :=
  iprop(StableHlo.held (c : Thread nD τ) ucBufs (Vend m c) ∗ ∃ r, prngReg c r)

/-- An unscoped reference of the core is in the set the host operations run within. -/
theorem mem_ucR (b : Ref sig .tc) (hb : b.isScoped = false) : Proc.devRef (τ := τ) .tc b ∈ ucBufs :=
  Finset.mem_filter.mpr ⟨StableHlo.devRef_mem_tcRefs b, fun h' => Bool.false_ne_true (hb.symm.trans h')⟩

set_option backward.isDefEq.respectTransparency.types false in
/-- At the compiled mesh, for any float values, from any memory with zero counters: every weakly fair execution of the
    program terminates, nothing faulting, with every unscoped buffer of every core at `Vend`. -/
theorem run_main : θ_run defs (onTc (τ := τ) (main (F := F))) ⟨m, fun _ => 0, ρ⟩ (fun r => ∀ c : Dev nD, ∀ b : Ref sig .tc,
    b.isScoped = false → r.2.mem ((c.tc : Thread nD τ).loc b) = Vend m c (Proc.devRef .tc b)) :=
  Pipeline.θ_run_regions_kit (pcfgs (F := F)) launchAdm (dats m) () cellOf_inj emb₁ defs₀ Variants.none launchPairs launchLevels m ρ main (launchSegs m)
    (fun c Q => by rw [main_segs launchAdm (dats m) () Variants.none launchPairs launchLevels (seg0 m) (seg1 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucBufs (fun b => m (c, b)) ∗ rides c)) (Tₙ := heldAtEnd m)
    (hch := ⟨fun _ => .rfl, fun _ => .rfl, fun _ => .rfl, fun c => by
      show iprop(StableHlo.held (c : Thread nD τ) ucBufs (StableHlo.after hostOps1 (Vmid m c)) ∗ rides c) ⊢ _
      iintro ⟨Hh, HO, Hp⟩
      isplitr [HO]
      · isplitl [Hh]
        · iexact Hh
        · iexact Hp
      · iexact HO⟩)
    (hinit := by
      refine Pipeline.initEach launchPairs launchLevels fun c => ?_
      rw [show unscopedBufs c (fun b => m ((c : Thread nD τ).loc b)) = StableHlo.held (c : Thread nD τ) ucBufs (fun b => m (c, b)) from Pipeline.unscopedBufs_held c (fun b => m (c, b))]
      iintro ⟨⟨Hh, -, HO, -, Hp, -⟩, -⟩
      imodintro
      isplitl [Hh]; · iexact Hh
      isplitl [HO]
      · iexists ∅; iexact HO
      · iexists _; iexact Hp)
    (QY := fun c s => ∀ b ∈ ucBufs, s.mem ((c : Thread nD τ).1, b) = Vend m c b)
    (hfin := fun c s' => by
      show iprop((bigSep ucBufs (fun b => ((((c : Thread nD τ).1, b) ↦{fullShare} Vend m c b : sProp 𝕄))) ∗ ∃ r, prngReg c r) ∗ SI s') ⊢ _
      iintro ⟨⟨Hh, -⟩, HSI⟩
      imodintro
      iapply (pointsTo_read_all ucBufs (fun b => ((c : Thread nD τ).1, b)) (fun b => Vend m c b) s')
      isplitl [Hh]
      · iexact Hh
      · iexact HSI)
    (hQ := fun s h c b hb => h c _ (mem_ucR b hb))

/-- No host operation writes the argument array, and the call only reads it: it ends as launched. -/
theorem Vend_arg0 (c : Dev nD) : Vend m c (Proc.devRef .tc main_arg0) = m ((c.tc : Thread nD τ).loc main_arg0) := by
  unfold Vend
  rw [StableHlo.after_of_forall_not_mem (b := Proc.devRef .tc main_arg0) hostOps1 (Vmid m c) (not_written1 main_arg0 (by decide))]
  unfold Vmid
  rw [Function.update_of_ne (StableHlo.devRef_ne_of_ne (by decide))]
  exact StableHlo.after_of_forall_not_mem (b := Proc.devRef .tc main_arg0) hostOps0 _ (not_written0 main_arg0 (by decide))

/-- The frame: the program runs to the end and leaves its argument array unchanged. -/
theorem frame : θ_run defs (onTc (τ := τ) (main (F := F))) ⟨m, fun _ => 0, ρ⟩ (fun r => ∀ c : Dev nD,
    r.2.mem ((c.tc : Thread nD τ).loc main_arg0) = m ((c.tc : Thread nD τ).loc main_arg0)) :=
  (θ_run defs _ _).mono (fun _ h c => (h c main_arg0 rfl).trans (Vend_arg0 m c)) (run_main m ρ)

end Cert.KernelIdeal.Hand

end
-- ==== Proof.Spec.lean ====
/-
  The mathematics both programs compute, stated once over the input's entries.

  The input is 8192 points x_0 … x_8191 of a 512-dimensional space. For a point r let
    n(r)     = 0 + Σ_k x_r[k]²                          (its squared length),
    g(r, c)  = Σ_k x_r[k] · x_c[k]                      (the inner product with point c),
    d(r, c)  = sqrt (max (n(r) + n(c) − 2·g(r, c), 0))  (the distance between the two points),
  and let the distance of a point to itself count as +∞. The nearest-neighbour distance of r is the least of
  d(r, c) over all c ≠ r, taken as a fold of `min` from +∞ over every c; the loss of r is −log of that distance
  plus a small constant; the result is the mean of the 8192 losses (their sum from 0, divided by 8192, times 1).
  The float constants stay the words the programs print (two, zero, +∞, the small constant, 8192, one) read as
  extended reals; no value of theirs is ever needed, only that both programs print the same words.
-/
import Idealize.ShloMosaic.PureOps.Ideal.Laws
import Idealize.ShloMosaic.Lib.ValueIdx

noncomputable section

open scoped BigOperators

namespace Cert.Spec

open Idealize.ShloMosaic Idealize.ShloMosaic.ValueIdx

/-- The input: 8192 points, 512 coordinates each, as extended reals. -/
abbrev Pts : Type := (⟨2, ![8192, 512]⟩ : Shape).Idx → EReal

/-- The words the programs print, as extended reals. -/
abbrev zeroW : EReal := Ideal.ofBits .f32 0x00000000#32
abbrev twoW : EReal := Ideal.ofBits .f32 0x40000000#32
abbrev infW : EReal := Ideal.ofBits .f32 0x7F800000#32
abbrev epsW : EReal := Ideal.ofBits .f32 0x322BCC77#32
abbrev countW : EReal := Ideal.ofBits .f32 0x46000000#32
abbrev oneW : EReal := Ideal.ofBits .f32 0x3F800000#32

/-- The squared length of point `r`: the sum of its squared coordinates, from zero. -/
def sqLen (x : Pts) (r : Fin 8192) : EReal := zeroW + ∑ k : Fin 512, x (ix2 r k) * x (ix2 r k)

/-- The inner product of points `r` and `c`. -/
def inner (x : Pts) (r c : Fin 8192) : EReal := ∑ k : Fin 512, x (ix2 r k) * x (ix2 c k)

/-- The distance between points `r` and `c`, by the expansion of the squared difference, clamped at zero. -/
def dist (x : Pts) (r c : Fin 8192) : EReal :=
  Ideal.sqrt (max ((sqLen x r + sqLen x c) - twoW * inner x r c) zeroW)

/-- The same with a point's distance to itself replaced by +∞. -/
def distOff (x : Pts) (r c : Fin 8192) : EReal := if r = c then infW else dist x r c

/-- The nearest-neighbour distance of point `r`: the least entry of its row, folded from +∞. -/
def nearest (x : Pts) (r : Fin 8192) : EReal := (Finset.univ : Finset (Fin 8192)).fold min infW (distOff x r)

/-- The loss of point `r`. -/
def rowLoss (x : Pts) (r : Fin 8192) : EReal := -Ideal.log (nearest x r + epsW)

/-- The mean loss. -/
def loss (x : Pts) : EReal := oneW * Ideal.div (zeroW + ∑ r : Fin 8192, rowLoss x r) countW

end Cert.Spec

end
-- ==== Proof.LibMinReduce.lean ====
/-
  A minimum taken along ONE axis of an array of extended reals, read at a result index.

  Both programs of a kernel-against-reference pair may take such a minimum: the kernel by a
  `vector.multi_reduction <minimumf>` over one axis of a block, the reference by a one-operand
  `stablehlo.reduce` whose body is `stablehlo.minimum`. Each is defined as a fold of the two-argument minimum,
  from a starting value, over the source indices in row-major order. On the extended reals the two-argument
  minimum is `min`, which commutes and associates, so the order of the fold does not matter: at the result index
  `j` each is the fold of `min`, from the starting value, over the coordinates `k` of the dropped axis, of the
  source at `j` with `k` inserted on that axis (`Shape.Reduces.lift`). Stated so, a kernel's minimum over a
  block's rows and a reference's minimum over the whole array's rows are folds over the SAME index set `Fin n`
  and can be compared summand by summand.

  `multiReduction_minimumf_single` is the kernel's side; `hostReduce_minimumf_single` is the reference's. They
  are the counterparts for `min` of the readings of a sum and of a maximum along one axis.
-/
import Idealize.ShloMosaic.PureOps.Ideal.Laws

namespace Cert.LibMinReduce

open Idealize.ShloMosaic

variable {φ : FTy}

/-- A float `vector.multi_reduction <minimumf>` over the one axis `a`, at the exact values: at the result index
    `j` it is the fold of `min`, from the accumulator's value, over the coordinates `k` of axis `a`, of the source
    at `j` with `k` inserted. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a minimum body over the one axis `a`, at the exact values: at
    `j` it is the fold of `min`, from the initial value's one element, over the coordinates `k` of axis `a`, of the
    operand at `j` with `k` inserted. (`h'` is the shape fact the operation carries; `h`, at the same shapes, names
    the inserted index.) -/
theorem hostReduce_minimumf_single {s t u : Shape} {a : Fin s.rank} (x : FVec Ideal s φ) (init : u.Idx → Ideal φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single (FloatOps.minimumf (F := Ideal) (φ := φ)) x init h' h hu j

end Cert.LibMinReduce
-- ==== Proof.LibColumn.lean ====
/-
  Two layout readings a row reduction with kept dimensions needs: a length-a vector cast to an a × 1 column, and an
  a × 1 column broadcast along the rows of an a × b array, each read at an index.
-/
import Idealize.ShloMosaic.Lib.Pipeline.Value
import Idealize.ShloMosaic.Lib.ValueIdx

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Ideal.Payload.lean ====
/-
  What the kernel body computes at one grid point, read entry by entry over the extended reals.

  At the point (row block bi, column block bj) the body holds a 1024 × 512 block of "row" points x0, a 1024 × 512
  block of "column" points x1, the rows' squared lengths x2 (a column) and the columns' squared lengths x3 (a row).
  It forms the 1024 × 1024 tile whose entry (p, q) is sqrt (max (x2[p] + x3[q] − 2 · Σ_k x0[p,k] · x1[q,k], 0)), puts
  +∞ where the global row index bi·1024 + p equals the global column index bj·1024 + q (`tileEntry`), takes each
  row's minimum from +∞, and folds it into the running minimum (`step`). The running minimum starts at +∞ (`start`),
  and the output is 0 − log (running minimum + ε), that is −log of it (`emit`).
-/
import proofs.«112455_j6511170421442_1_alg».proof.Proof.Ideal.Body
import proofs.«112455_j6511170421442_1_alg».proof.Proof.Spec
import proofs.«112455_j6511170421442_1_alg».proof.Proof.LibMinReduce
import proofs.«112455_j6511170421442_1_alg».proof.Proof.LibColumn
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

/-- The masked distance the body forms at local row `p`, local column `q` of the tile at grid point (bi, bj). -/
def tileEntry (bi bj : ℕ) (x0 x1 : Vec Ideal S1024x512 .f32) (x2 : Vec Ideal S1024x1 .f32) (x3 : Vec Ideal S1x1024 .f32)
    (p q : Fin 1024) : EReal :=
  if bi * 1024 + p.val = bj * 1024 + q.val then Cert.Spec.infW
  else Ideal.sqrt (max ((x2 (ix2 p (0 : Fin 1)) + x3 (ix2 (0 : Fin 1) q))
      - Cert.Spec.twoW * ∑ k : Fin 512, x0 (ix2 p k) * x1 (ix2 q k)) Cert.Spec.zeroW)

/-! ## The layout and reduction operations of the body, each read at one entry -/

/-- A row index of the reduced array with column q put back on the dropped axis is the entry (p, q). -/
theorem lift_row (h : S1024x1024.Reduces [1] S1024) (p : Fin 1024) (q : Fin (S1024x1024.size 1)) :
    h.lift (ix1 p) q = ix2 p (⟨q.val, q.isLt⟩ : Fin 1024) := by
  funext c; apply Fin.ext
  match c with
  | ⟨0, _⟩ => rfl
  | ⟨1, _⟩ => rfl

/-- The minimum along the rows of a 1024 × 1024 array, from +∞: at row p the fold of min over the row's entries. -/
theorem rowMin_apply (src : FVec Ideal S1024x1024 .f32) (h : S1024x1024.Reduces [1] S1024) (hφ : FKind.Formats FTy.f32)
    (hacc : (0x7F800000#32 : BitVec FTy.f32.bits) = FKind.minimumf.neutral .f32 hφ) (p : Fin 1024) :
    multiReduction (F := Ideal) .minimumf [1] S1024 src 0x7F800000#32 h hφ hacc (ix1 p)
      = (Finset.univ : Finset (Fin 1024)).fold min Cert.Spec.infW fun q => src (ix2 p q) := by
  refine (Cert.LibMinReduce.multiReduction_minimumf_single src _ h hφ hacc (ix1 p)).trans ?_
  show (Finset.univ : Finset (Fin 1024)).fold min (Ideal.ofBits .f32 0x7F800000#32) (src ∘ h.lift (ix1 p)) = _
  refine congrArg (fun f => Finset.fold min (Ideal.ofBits .f32 0x7F800000#32) f (Finset.univ : Finset (Fin 1024))) (funext fun q => ?_)
  exact congrArg src (lift_row h p q)

/-! ## The block product at one entry

The product contracts the second axis of its left operand with the first axis of its right operand. At output entry i
and contraction index q the left operand is read at (i 0, q) and the right operand at (q, i 1): one statement per axis. -/

theorem lhs_axis0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_axis1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
theorem rhs_axis0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
theorem rhs_axis1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The product of a 1024 × 512 block and a 512 × 1024 block, accumulated into zero: entry (p, q) is the sum over k of
    the left block at (p, k) times the right block at (k, q). -/
theorem matmul_entry (a : FVec Ideal S1024x512 .f32) (b : FVec Ideal S512x1024 .f32) (p q : Fin 1024) :
    matmul dot_S1024x512_S512x1024_S1024x1024_1_0_0_1_n_n none a b (constant (F := Ideal) S1024x1024 .f32 0x00000000#32) (ix2 p q)
      = ∑ k : Fin 512, a (ix2 p k) * b (ix2 k q) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 p q) ((ValueIdx.contrEquiv1 dot_S1024x512_S512x1024_S1024x1024_1_0_0_1_n_n 512 rfl rfl).symm k) = ix2 p k := funext fun ax => Fin.ext (by
    match ax with
    | ⟨0, _⟩ => exact lhs_axis0 _ _
    | ⟨1, _⟩ => exact (lhs_axis1 _ _).trans hk)
  have er : dot_S1024x512_S512x1024_S1024x1024_1_0_0_1_n_n.rhsIdx (ix2 p q) ((ValueIdx.contrEquiv1 dot_S1024x512_S512x1024_S1024x1024_1_0_0_1_n_n 512 rfl rfl).symm k) = ix2 k q := funext fun ax => Fin.ext (by
    match ax with
    | ⟨0, _⟩ => exact (rhs_axis0 _ _).trans hk
    | ⟨1, _⟩ => exact rhs_axis1 _ _)
  rw [el, er]

/-- The same with the right block given as the transpose of a 1024 × 512 block: the sum over k of a (p, k) · c (q, k). -/
theorem matmul_transpose_entry (a c : FVec Ideal S1024x512 .f32) (h : S1024x512.Transposes [1, 0] S512x1024) (p q : Fin 1024) :
    matmul dot_S1024x512_S512x1024_S1024x1024_1_0_0_1_n_n none a (transpose S512x1024 [1, 0] c h) (constant (F := Ideal) S1024x1024 .f32 0x00000000#32) (ix2 p q)
      = ∑ k : Fin 512, a (ix2 p k) * c (ix2 q k) := by
  rw [matmul_entry]
  refine Finset.sum_congr rfl fun k _ => ?_
  rw [transpose_ix2_apply c h k q]

/-! ## The diagonal mask -/

/-- Block number times 1024 plus a local index, as 32-bit words, does not wrap: two such words are equal exactly when the
    numbers are. -/
theorem word_diag (a b : ℕ) (ha : a < 8) (hb : b < 8) (p q : Fin 1024) :
    (BitVec.ofNat 32 a * 1024#32 + BitVec.ofNat 32 p.val = BitVec.ofNat 32 b * 1024#32 + BitVec.ofNat 32 q.val)
      ↔ a * 1024 + p.val = b * 1024 + q.val := by
  have hp := p.isLt; have hq := q.isLt
  rw [← BitVec.toNat_inj]
  simp only [BitVec.toNat_add, BitVec.toNat_mul, BitVec.toNat_ofNat]
  omega

/-- An equality test of two words is the bit 1 exactly when the words are equal. -/
theorem cmpi_eq_one_iff {w : ℕ} (x y : BitVec w) : IntOp.cmpi .eq x y = 1#1 ↔ x = y := by
  show BitVec.ofBool (x == y) = 1#1 ↔ x = y
  by_cases h : x = y
  · simp [h]
  · have hb : (x == y) = false := beq_eq_false_iff_ne.mpr h
    rw [hb]
    exact ⟨fun h' => absurd h' (by decide), fun h' => absurd h' h⟩

/-- The mask at entry (p, q) of the tile at grid point (a, b): the bit is 1 exactly when the global row index
    a · 1024 + p equals the global column index b · 1024 + q. -/
theorem mask_entry (a b : ℕ) (ha : a < 8) (hb : b < 8) (h0 : S1024x1024.Iotas .tc 32 [0]) (h1 : S1024x1024.Iotas .tc 32 [1])
    (p q : Fin 1024) :
    cmpi .eq (addi (broadcast S1024x1024 (Scalar.muli (BitVec.ofNat 32 a) 1024#32)) (iota .tc S1024x1024 32 [0] h0))
        (addi (broadcast S1024x1024 (Scalar.muli (BitVec.ofNat 32 b) 1024#32)) (iota .tc S1024x1024 32 [1] h1)) (ix2 p q) = 1#1
      ↔ a * 1024 + p.val = b * 1024 + q.val := by
  have e0 : iota .tc S1024x1024 32 [0] h0 (ix2 p q) = BitVec.ofNat 32 p.val := iota_single_apply .tc S1024x1024 32 0 h0 (ix2 p q)
  have e1 : iota .tc S1024x1024 32 [1] h1 (ix2 p q) = BitVec.ofNat 32 q.val := iota_single_apply .tc S1024x1024 32 1 h1 (ix2 p q)
  show IntOp.cmpi .eq (IntOp.addi (Scalar.muli (BitVec.ofNat 32 a) 1024#32) (iota .tc S1024x1024 32 [0] h0 (ix2 p q)))
      (IntOp.addi (Scalar.muli (BitVec.ofNat 32 b) 1024#32) (iota .tc S1024x1024 32 [1] h1 (ix2 p q))) = 1#1 ↔ _
  rw [e0, e1, cmpi_eq_one_iff]
  exact word_diag a b ha hb p q

/-- A square root taken entrywise reads, at an entry, the square root of the entry. -/
theorem sqrt_apply {s : Shape} {φ : FTy} (a : FVec Ideal s φ) (j : s.Idx) : sqrt a j = Ideal.sqrt (a j) := rfl
/-- A logarithm taken entrywise reads, at an entry, the logarithm of the entry. -/
theorem log_apply {s : Shape} {φ : FTy} (a : FVec Ideal s φ) (j : s.Idx) : log a j = Ideal.log (a j) := rfl

/-- The running minimum starts at +∞. -/
theorem start_apply (p : Fin 1024) : start (F := Ideal) (ix2 p (0 : Fin 1)) = Cert.Spec.infW := by
  unfold start k0_pay3
  rw [shapeCast_self]
  rfl

/-- One step: the minimum of the old entry and the least masked distance of row `p` over the tile's 1024 columns. -/
theorem step_apply (i : grid0.Coords) (x0 x1 : Vec Ideal S1024x512 .f32) (x2 : Vec Ideal S1024x1 .f32) (x3 : Vec Ideal S1x1024 .f32)
    (s : Vec Ideal S1024x1 .f32) (p : Fin 1024) :
    step (F := Ideal) i x0 x1 x2 x3 s (ix2 p (0 : Fin 1))
      = min (s (ix2 p (0 : Fin 1)))
          ((Finset.univ : Finset (Fin 1024)).fold min Cert.Spec.infW fun q => tileEntry (i 0).val (i 1).val x0 x1 x2 x3 p q) := by
  have ha : (i 0).val < 8 := (i 0).isLt
  have hb : (i 1).val < 8 := (i 1).isLt
  unfold step k0_pay1 k0_pay4
  dsimp only
  rw [shapeCast_self, minimumf_apply, Cert.LibColumn.shapeCast_a_a1_apply]
  refine congrArg (min (s (ix2 p (0 : Fin 1)))) ?_
  refine (rowMin_apply _ _ _ _ p).trans ?_
  refine congrArg (fun f => Finset.fold min Cert.Spec.infW f (Finset.univ : Finset (Fin 1024))) (funext fun q => ?_)
  rw [select_apply]
  unfold tileEntry
  by_cases hd : (i 0).val * 1024 + p.val = (i 1).val * 1024 + q.val
  · rw [if_pos hd, (mask_entry _ _ ha hb _ _ p q).mpr hd, select_one]
    rfl
  · rw [if_neg hd, eq_zero_of_ne_one (fun h => hd ((mask_entry _ _ ha hb _ _ p q).mp h)), select_zero]
    rw [shapeCast_self, shapeCast_self, sqrt_apply, maximumf_apply, subf_apply, addf_apply, mulf_apply, broadcast_apply, broadcast_apply,
      Cert.LibColumn.broadcastTo_a1_ab_apply, broadcastTo_1b_ab_apply, matmul_transpose_entry]
    rfl

/-- The output entry: minus the logarithm of the running minimum plus ε. -/
theorem emit_apply (s : Vec Ideal S1024x1 .f32) (p : Fin 1024) :
    emit (F := Ideal) s (ix2 p (0 : Fin 1)) = -Ideal.log (s (ix2 p (0 : Fin 1)) + Cert.Spec.epsW) := by
  unfold emit k0_pay2
  rw [subf_apply, log_apply, addf_apply, broadcast_apply, broadcast_apply]
  show Ideal.ofBits .f32 0x00000000#32 - Ideal.log (s (ix2 p (0 : Fin 1)) + Ideal.ofBits .f32 0x322BCC77#32) = _
  rw [Ideal.ofBits_zero_f32, zero_sub]

end Cert.KernelIdeal.Hand

end
-- ==== Proof.Ideal.Blocks.lean ====
/-
  The four input blocks of a grid point, read off the program's argument.

  The call's arrays are, besides the points x themselves (read by two windows), the column and the row of squared
  lengths that five host operations compute first: n(r) = 0 + Σ_k x[r,k]². At point t — row block t / 8, column
  block t % 8 — window 0 holds rows (t/8)·1024 … of x, window 1 rows (t%8)·1024 … of x, window 2 the squared lengths
  of the former as a column, window 3 those of the latter as a row.
-/
import proofs.«112455_j6511170421442_1_alg».proof.Proof.Ideal.Data
import proofs.«112455_j6511170421442_1_alg».proof.Proof.Spec
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The program's argument on core `c`: the points. -/
abbrev pts (c : Dev nD) : Cert.Spec.Pts := m ((c.tc : Thread nD τ).loc main_arg0)

/-- The global index of local row `p` of block `b`. -/
def rowIn (b : ℕ) (hb : b < 8) (p : Fin 1024) : Fin 8192 := ⟨b * 1024 + p.val, by have := p.isLt; omega⟩

theorem tdiv_lt (t : Fin cfg0.N) : t.val / 8 < 8 := by
  have h : t.val < 64 := lt_of_lt_of_eq t.isLt N_0
  omega

theorem tmod_lt (t : Fin cfg0.N) : t.val % 8 < 8 := Nat.mod_lt _ (by decide)

/-- Point `t` is row block `t / 8`, -/
theorem coords_row (t : Fin cfg0.N) : (grid0.coords t 0).val = t.val / 8 :=
  (by decide +kernel : ∀ t : Fin grid0.N, (grid0.coords t 0).val = t.val / 8) t

/-- column block `t % 8`. -/
theorem coords_col (t : Fin cfg0.N) : (grid0.coords t 1).val = t.val % 8 :=
  (by decide +kernel : ∀ t : Fin grid0.N, (grid0.coords t 1).val = t.val % 8) t

/-! ## The block indices of the four windows, decided once over the grid -/

/-- Window 0 sits at block row `t / 8`, block column 0. -/
theorem idx0 : ∀ t : Fin cfg0.N, win0_0.index t (0 : Fin 2) = t.val / 8 ∧ win0_0.index t (1 : Fin 2) = 0 :=
  (by decide +kernel : ∀ t : Fin grid0.N, win0_0.index t (0 : Fin 2) = t.val / 8 ∧ win0_0.index t (1 : Fin 2) = 0)

/-- Window 1 sits at block row `t % 8`, block column 0. -/
theorem idx1 : ∀ t : Fin cfg0.N, win0_1.index t (0 : Fin 2) = t.val % 8 ∧ win0_1.index t (1 : Fin 2) = 0 :=
  (by decide +kernel : ∀ t : Fin grid0.N, win0_1.index t (0 : Fin 2) = t.val % 8 ∧ win0_1.index t (1 : Fin 2) = 0)

/-- Window 2 sits at block row `t / 8` of the column. -/
theorem idx2 : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- Window 3 sits at block column `t % 8` of the row. -/
theorem idx3 : ∀ t : Fin cfg0.N, win0_3.index t (0 : Fin 2) = 0 ∧ win0_3.index t (1 : Fin 2) = t.val % 8 :=
  (by decide +kernel : ∀ t : Fin grid0.N, win0_3.index t (0 : Fin 2) = 0 ∧ win0_3.index t (1 : Fin 2) = t.val % 8)

/-! ## The arrays the call finds -/

/-- No host operation writes the points' array: the call finds the argument itself. -/
theorem V_arg0 (c : Dev nD) : (V (F := Ideal) m c main_arg0 : S8192x512.Idx → EReal) = pts m c := by
  show StableHlo.after hostOps0 (fun b => m (c, b)) (Proc.devRef .tc main_arg0) = _
  after_results

/-- Window 0 at point `t`: the rows of block `t / 8`. -/
theorem iblk0_apply (c : Dev nD) (t : Fin cfg0.N) (p : Fin 1024) (k : Fin 512) :
    iblk (F := Ideal) m c 0 t (ix2 p k) = pts m c (ix2 (rowIn (t.val / 8) (tdiv_lt t) p) k) := by
  obtain ⟨e0, e1⟩ := idx0 t
  show (V (F := Ideal) m c main_arg0 : S8192x512.Idx → EReal) (((cfg0.win 0).blk t).view.emb (ix2 p k)) = _
  rw [V_arg0]
  refine congrArg (pts m c) ?_
  funext a; apply Fin.ext
  match a with
  | ⟨0, _⟩ => show win0_0.index t (0 : Fin 2) * 1024 + 1 * p.val = t.val / 8 * 1024 + p.val; rw [e0]; omega
  | ⟨1, _⟩ => show win0_0.index t (1 : Fin 2) * 512 + 1 * k.val = k.val; rw [e1]; omega

/-- Window 1: the rows of block `t % 8`. -/
theorem iblk1_apply (c : Dev nD) (t : Fin cfg0.N) (p : Fin 1024) (k : Fin 512) :
    iblk (F := Ideal) m c 1 t (ix2 p k) = pts m c (ix2 (rowIn (t.val % 8) (tmod_lt t) p) k) := by
  obtain ⟨e0, e1⟩ := idx1 t
  show (V (F := Ideal) m c main_arg0 : S8192x512.Idx → EReal) (((cfg0.win 1).blk t).view.emb (ix2 p k)) = _
  rw [V_arg0]
  refine congrArg (pts m c) ?_
  funext a; apply Fin.ext
  match a with
  | ⟨0, _⟩ => show win0_1.index t (0 : Fin 2) * 1024 + 1 * p.val = t.val % 8 * 1024 + p.val; rw [e0]; omega
  | ⟨1, _⟩ => show win0_1.index t (1 : Fin 2) * 512 + 1 * k.val = k.val; rw [e1]; omega

/-! ## The squared lengths: the row sums of the squares, and their two reshapes -/

/-- The rows of a two-axis array can be summed away along the second axis. -/
theorem reduces_rows : S8192x512.Reduces [1] S8192 := by decide

/-- The vector of row sums the host operations compute: from the zero word, the sum of each row's squares. -/
abbrev sums (c : Dev nD) : S8192.Idx → EReal :=
  Host.reduceAdd (mulf (pts m c) (pts m c)) (constant (F := Ideal) S_ .f32 0x00000000#32) reducesTo_S8192x512_S8192_d1 h_S_

/-- Its entry `r` is the squared length of point `r`. -/
theorem sums_apply (c : Dev nD) (r : Fin 8192) : sums m c (ix1 r) = Cert.Spec.sqLen (pts m c) r := by
  show Host.reduceAdd (mulf (pts m c) (pts m c)) (constant (F := Ideal) S_ .f32 0x00000000#32) reducesTo_S8192x512_S8192_d1 h_S_ (ix1 r) = _
  rw [hostReduceAdd_apply, Ideal.hostReduceAdd_single reducesTo_S8192x512_S8192_d1 reduces_rows]
  show Cert.Spec.zeroW + ∑ k : Fin 512, pts m c (reduces_rows.lift (ix1 r) k) * pts m c (reduces_rows.lift (ix1 r) k)
    = Cert.Spec.zeroW + ∑ k : Fin 512, pts m c (ix2 r k) * pts m c (ix2 r k)
  refine congrArg (Cert.Spec.zeroW + ·) (Finset.sum_congr rfl fun k _ => ?_)
  have e : reduces_rows.lift (ix1 r) k = ix2 r k := by
    funext a; apply Fin.ext
    match a with
    | ⟨0, _⟩ => rfl
    | ⟨1, _⟩ => rfl
  rw [e]

/-- The column the call finds: the row sums, reshaped to one column. -/
theorem V_v2 (c : Dev nD) : (V (F := Ideal) m c main_v2 : S8192x1.Idx → EReal) = shapeCast S8192x1 (sums m c) shapeCasts_S8192_S8192x1 := by
  show StableHlo.after hostOps0 (fun b => m (c, b)) (Proc.devRef .tc main_v2) = _
  after_results
  rfl

/-- The row the call finds: the row sums, reshaped to one row. -/
theorem V_v3 (c : Dev nD) : (V (F := Ideal) m c main_v3 : S1x8192.Idx → EReal) = shapeCast S1x8192 (sums m c) shapeCasts_S8192_S1x8192 := by
  show StableHlo.after hostOps0 (fun b => m (c, b)) (Proc.devRef .tc main_v3) = _
  after_results
  rfl

/-- The column at an index whose first coordinate is `r`: the squared length of point `r` (position `r·1 + 0` of the
    column is position `r` of the vector). -/
theorem col_read (c : Dev nD) (i : S8192x1.Idx) (r : Fin 8192) (h0 : (i 0).val = r.val) :
    (V (F := Ideal) m c main_v2 : S8192x1.Idx → EReal) i = Cert.Spec.sqLen (pts m c) r := by
  rw [V_v2]
  refine (shapeCast_apply (sums m c) shapeCasts_S8192_S8192x1 i (ix1 r) ?_).trans (sums_apply m c r)
  rw [Shape.rowMajor_val_two, Shape.rowMajor_val_one]
  show r.val = (i 0).val * 1 + (i 1).val
  have h1 : (i 1).val < 1 := (i 1).isLt
  omega

/-- The row at an index whose second coordinate is `r`: the same (position `0·8192 + r`). -/
theorem row_read (c : Dev nD) (i : S1x8192.Idx) (r : Fin 8192) (h1 : (i 1).val = r.val) :
    (V (F := Ideal) m c main_v3 : S1x8192.Idx → EReal) i = Cert.Spec.sqLen (pts m c) r := by
  rw [V_v3]
  refine (shapeCast_apply (sums m c) shapeCasts_S8192_S1x8192 i (ix1 r) ?_).trans (sums_apply m c r)
  rw [Shape.rowMajor_val_two, Shape.rowMajor_val_one]
  show r.val = (i 0).val * 8192 + (i 1).val
  have h0 : (i 0).val < 1 := (i 0).isLt
  omega

/-- Window 2: the squared lengths of the rows of block `t / 8`, as a column. -/
theorem iblk2_apply (c : Dev nD) (t : Fin cfg0.N) (p : Fin 1024) :
    iblk (F := Ideal) m c 2 t (ix2 p (0 : Fin 1)) = Cert.Spec.sqLen (pts m c) (rowIn (t.val / 8) (tdiv_lt t) p) := by
  obtain ⟨e0, e1⟩ := idx2 t
  show (V (F := Ideal) m c main_v2 : S8192x1.Idx → EReal) (((cfg0.win 2).blk t).view.emb (ix2 p (0 : Fin 1))) = _
  refine col_read m c _ _ ?_
  show win0_2.index t (0 : Fin 2) * 1024 + 1 * p.val = t.val / 8 * 1024 + p.val
  rw [e0]; omega

/-- Window 3: the squared lengths of the rows of block `t % 8`, as a row. -/
theorem iblk3_apply (c : Dev nD) (t : Fin cfg0.N) (q : Fin 1024) :
    iblk (F := Ideal) m c 3 t (ix2 (0 : Fin 1) q) = Cert.Spec.sqLen (pts m c) (rowIn (t.val % 8) (tmod_lt t) q) := by
  obtain ⟨e0, e1⟩ := idx3 t
  show (V (F := Ideal) m c main_v3 : S1x8192.Idx → EReal) (((cfg0.win 3).blk t).view.emb (ix2 (0 : Fin 1) q)) = _
  refine row_read m c _ _ ?_
  show win0_3.index t (1 : Fin 2) * 1024 + 1 * q.val = t.val % 8 * 1024 + q.val
  rw [e1]; omega

end Cert.KernelIdeal.Hand

end
-- ==== Proof.Algebra.lean ====
/-
  The one law that joins the two programs: a minimum over 8192 columns taken all at once equals the minimum
  accumulated block by block, 1024 columns at a time, starting from +∞ — `min` on the extended reals is
  associative, commutative and idempotent, so neither the grouping nor the repeated starting value matters.
-/
import proofs.«112455_j6511170421442_1_alg».proof.Proof.Spec
import Mathlib.Data.Finset.Fold
import Mathlib.Order.Interval.Finset.Nat

noncomputable section

open scoped BigOperators

namespace Cert.Spec

open Idealize.ShloMosaic Idealize.ShloMosaic.ValueIdx

/-- The least masked distance from point `r` to the 1024 points of column block `j` (blocks past the eighth are empty:
    +∞). -/
def blockMin (x : Pts) (r : Fin 8192) (j : ℕ) : EReal :=
  (Finset.univ : Finset (Fin 1024)).fold min infW fun q =>
    if h : j < 8 then distOff x r ⟨j * 1024 + q.val, by have := q.isLt; omega⟩ else infW

/-- A minimum accumulated one term at a time from `b`: after term `n` it is `min (… (min (min b (g 0)) (g 1)) …) (g n)`. -/
def runMin (b : EReal) (g : ℕ → EReal) : ℕ → EReal
  | 0 => min b (g 0)
  | n + 1 => min (runMin b g n) (g (n + 1))

/-- Accumulating a minimum term by term is a fold of `min` over the first `n + 1` indices. -/
theorem runMin_eq_fold (b : EReal) (g : ℕ → EReal) (n : ℕ) :
    runMin b g n = (Finset.range (n + 1)).fold min b g := by
  induction n with
  | zero =>
    rw [runMin, Finset.range_one, Finset.fold_singleton, min_comm]
  | succ n ih =>
    rw [runMin, ih, Finset.range_add_one (n := n + 1), Finset.fold_insert Finset.notMem_range_self, min_comm]

/-- Every column index splits as a block number below 8 and a place below 1024 inside the block. -/
theorem col_split (k : Fin 8192) :
    k = ⟨(k.val / 1024) * 1024 + k.val % 1024, by have := k.isLt; omega⟩ := by
  apply Fin.ext
  show k.val = (k.val / 1024) * 1024 + k.val % 1024
  omega

/-- A lower bound of one block's minimum is a lower bound of +∞ and of every entry of that block. -/
theorem le_blockMin_iff (x : Pts) (r : Fin 8192) (j : ℕ) (hj : j < 8) (c : EReal) :
    c ≤ blockMin x r j ↔
      c ≤ infW ∧ ∀ q : Fin 1024, c ≤ distOff x r ⟨j * 1024 + q.val, by have := q.isLt; omega⟩ := by
  unfold blockMin
  rw [Finset.le_fold_min]
  constructor
  · rintro ⟨hb, h⟩
    refine ⟨hb, fun q => ?_⟩
    have := h q (Finset.mem_univ q)
    rwa [dif_pos hj] at this
  · rintro ⟨hb, h⟩
    refine ⟨hb, fun q _ => ?_⟩
    rw [dif_pos hj]
    exact h q

/-- The nearest-neighbour distance of point `r` is the minimum accumulated over the eight column blocks. -/
theorem nearest_eq_runMin (x : Pts) (r : Fin 8192) : nearest x r = runMin infW (blockMin x r) 7 := by
  apply eq_of_forall_le_iff
  intro c
  rw [runMin_eq_fold, nearest, Finset.le_fold_min, Finset.le_fold_min]
  constructor
  · rintro ⟨hb, h⟩
    refine ⟨hb, fun j hj => ?_⟩
    have hj8 : j < 8 := Finset.mem_range.mp hj
    rw [le_blockMin_iff x r j hj8]
    exact ⟨hb, fun q => h _ (Finset.mem_univ _)⟩
  · rintro ⟨hb, h⟩
    refine ⟨hb, fun k _ => ?_⟩
    have hk := k.isLt
    have hj8 : k.val / 1024 < 8 := by omega
    have hblock := h (k.val / 1024) (Finset.mem_range.mpr hj8)
    rw [le_blockMin_iff x r _ hj8] at hblock
    have hq := hblock.2 ⟨k.val % 1024, Nat.mod_lt _ (by norm_num)⟩
    rw [col_split k]
    exact hq

end Cert.Spec

end
-- ==== Proof.Ideal.Accum.lean ====
/-
  The running minimum after each grid point, in closed form.

  Within row block bi the kernel visits the column blocks j = 0, …, 7 in order. After column block j the scratch
  holds, at local row p, the minimum accumulated from +∞ over the blocks 0 … j of the least masked distance from
  the global row bi·1024 + p to the block's 1024 columns (`Cert.Spec.runMin` over `Cert.Spec.blockMin`): at j = 0 the
  scratch was refilled with +∞, and each later point folds its block's minimum into what the point before left.
-/
import proofs.«112455_j6511170421442_1_alg».proof.Proof.Ideal.Payload
import proofs.«112455_j6511170421442_1_alg».proof.Proof.Ideal.Blocks
import proofs.«112455_j6511170421442_1_alg».proof.Proof.Algebra

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-- The running minimum at a point depends only on the point's number, not on the proof that it lies in the grid. -/
theorem accAt_congr (c : Dev nD) {n n' : ℕ} (h : n = n') (hn : n < cfg0.N) (hn' : n' < cfg0.N) :
    accAt (F := Ideal) m c n hn = accAt (F := Ideal) m c n' hn' := by
  subst h; rfl

/-- At the point of row block `bi` and column block `j`, the tile's entry (p, q) is the masked distance from the global
    row bi·1024 + p to the global column j·1024 + q: the four blocks hold exactly those rows, those columns and their
    squared lengths, and the two diagonal tests compare the same pair of global indices. -/
theorem tile_eq (c : Dev nD) (t : Fin cfg0.N) (bi j : ℕ) (hbi : bi < 8) (hj : j < 8)
    (hr : t.val / 8 = bi) (hc : t.val % 8 = j) (p q : Fin 1024) :
    tileEntry (grid0.coords t 0).val (grid0.coords t 1).val
        (iblk (F := Ideal) m c 0 t) (iblk (F := Ideal) m c 1 t) (iblk (F := Ideal) m c 2 t) (iblk (F := Ideal) m c 3 t) p q
      = Cert.Spec.distOff (pts m c) (rowIn bi hbi p) ⟨j * 1024 + q.val, by have := q.isLt; omega⟩ := by
  subst hr hc
  unfold tileEntry Cert.Spec.distOff
  rw [coords_row, coords_col]
  by_cases h : t.val / 8 * 1024 + p.val = t.val % 8 * 1024 + q.val
  · rw [if_pos h, if_pos (Fin.ext h)]
  · rw [if_neg h, if_neg (fun e => h (Fin.ext_iff.mp e))]
    unfold Cert.Spec.dist Cert.Spec.inner
    simp only [iblk0_apply, iblk1_apply, iblk2_apply, iblk3_apply]
    rfl

/-- Hence the least entry of row `p` of that tile, folded from +∞, is the block minimum of column block `j`. -/
theorem tileFold_eq (c : Dev nD) (t : Fin cfg0.N) (bi j : ℕ) (hbi : bi < 8) (hj : j < 8)
    (hr : t.val / 8 = bi) (hc : t.val % 8 = j) (p : Fin 1024) :
    ((Finset.univ : Finset (Fin 1024)).fold min Cert.Spec.infW fun q =>
        tileEntry (grid0.coords t 0).val (grid0.coords t 1).val
          (iblk (F := Ideal) m c 0 t) (iblk (F := Ideal) m c 1 t) (iblk (F := Ideal) m c 2 t) (iblk (F := Ideal) m c 3 t) p q)
      = Cert.Spec.blockMin (pts m c) (rowIn bi hbi p) j := by
  unfold Cert.Spec.blockMin
  refine Finset.fold_congr (fun q _ => ?_)
  rw [dif_pos hj]
  exact tile_eq m c t bi j hbi hj hr hc p q

/-- One step at that point, read at local row `p`: the old entry against the block minimum of column block `j`. -/
theorem stepAt_apply (c : Dev nD) (t : Fin cfg0.N) (bi j : ℕ) (hbi : bi < 8) (hj : j < 8)
    (hr : t.val / 8 = bi) (hc : t.val % 8 = j) (s : Vec Ideal S1024x1 .f32) (p : Fin 1024) :
    stepAt (F := Ideal) m c t s (ix2 p (0 : Fin 1))
      = min (s (ix2 p (0 : Fin 1))) (Cert.Spec.blockMin (pts m c) (rowIn bi hbi p) j) := by
  unfold stepAt
  rw [step_apply (grid0.coords t) (iblk (F := Ideal) m c 0 t) (iblk (F := Ideal) m c 1 t) (iblk (F := Ideal) m c 2 t)
    (iblk (F := Ideal) m c 3 t) s p, tileFold_eq m c t bi j hbi hj hr hc p]

/-- After the point (bi, j) the running minimum of local row `p` is the minimum accumulated over column blocks 0 … j. -/
theorem accAt_apply (c : Dev nD) (bi j : ℕ) (hbi : bi < 8) (hj : j < 8) (p : Fin 1024) :
    accAt (F := Ideal) m c (bi * 8 + j) (lt_of_lt_of_eq (by omega : bi * 8 + j < 64) N_0.symm) (ix2 p (0 : Fin 1))
      = Cert.Spec.runMin Cert.Spec.infW (Cert.Spec.blockMin (pts m c) (rowIn bi hbi p)) j := by
  induction j generalizing p with
  | zero =>
    have hN : bi * 8 + 0 < cfg0.N := lt_of_lt_of_eq (by omega : bi * 8 + 0 < 64) N_0.symm
    have h : accAt (F := Ideal) m c (bi * 8 + 0) hN = stepAt m c ⟨bi * 8 + 0, hN⟩ start :=
      accAt_first m c ⟨bi * 8 + 0, hN⟩ (by show (bi * 8 + 0) % 8 = 0; omega)
    rw [h, stepAt_apply m c ⟨bi * 8 + 0, hN⟩ bi 0 hbi hj (by show (bi * 8 + 0) / 8 = bi; omega)
      (by show (bi * 8 + 0) % 8 = 0; omega) start p, start_apply]
    rfl
  | succ j ih =>
    have hj' : j < 8 := by omega
    have hN : bi * 8 + (j + 1) < cfg0.N := lt_of_lt_of_eq (by omega : bi * 8 + (j + 1) < 64) N_0.symm
    have hP : bi * 8 + j < cfg0.N := lt_of_lt_of_eq (by omega : bi * 8 + j < 64) N_0.symm
    have h : accAt (F := Ideal) m c (bi * 8 + (j + 1)) hN
        = stepAt m c ⟨bi * 8 + (j + 1), hN⟩
            (accAt m c (bi * 8 + (j + 1) - 1) (Nat.lt_of_le_of_lt (Nat.sub_le _ _) hN)) :=
      accAt_next m c ⟨bi * 8 + (j + 1), hN⟩ (by show ¬(bi * 8 + (j + 1)) % 8 = 0; omega)
    rw [h, stepAt_apply m c ⟨bi * 8 + (j + 1), hN⟩ bi (j + 1) hbi hj (by show (bi * 8 + (j + 1)) / 8 = bi; omega)
      (by show (bi * 8 + (j + 1)) % 8 = j + 1; omega) _ p,
      accAt_congr m c (by omega : bi * 8 + (j + 1) - 1 = bi * 8 + j) _ hP, ih hj' p]
    rfl

end Cert.KernelIdeal.Hand

end
-- ==== Proof.Ideal.Result.lean ====
/-
  The kernel program's result: the mean nearest-neighbour loss of its argument.

  The call writes the output column block by block: row block bi is written back after its last column block, from
  the running minimum there, so entry r of the column is −log (nearest-neighbour distance of r + ε), the loss of r.
  The six host operations after the call sum the column from zero, divide by 8192 and multiply by one.
-/
import proofs.«112455_j6511170421442_1_alg».proof.Proof.Ideal.Accum
import Idealize.ShloMosaic.Lib.StableHlo.Run
import Idealize.ShloMosaic.Lib.IdealHost
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem

variable (m : (ℓ : Loc nD τ sig) → Buf (Elt Ideal) ℓ)

/-! ## From the written blocks to the output column -/

/-- The column of losses as contents of the output array: the entry at an index is the loss of the index's row. -/
def lossCol (c : Dev nD) : S8192x1.Idx → EReal := fun i => Cert.Spec.rowLoss (pts m c) (i 0)

/-- The output window sits at block row `t / 8` of the column. -/
theorem idx4 : ∀ t : Fin cfg0.N, win0_4.index t (0 : Fin 2) = t.val / 8 ∧ win0_4.index t (1 : Fin 2) = 0 :=
  (by decide +kernel : ∀ t : Fin grid0.N, win0_4.index t (0 : Fin 2) = t.val / 8 ∧ win0_4.index t (1 : Fin 2) = 0)

/-- After the last column block of row block `bi` the entry written for local row `p` is the loss of the global row:
    the running minimum over all eight column blocks is the nearest-neighbour distance. -/
theorem emit_last (c : Dev nD) (bi : ℕ) (hbi : bi < 8) (p : Fin 1024) :
    emit (F := Ideal) (accAt (F := Ideal) m c (bi * 8 + 7) (lt_of_lt_of_eq (by omega : bi * 8 + 7 < 64) N_0.symm)) (ix2 p (0 : Fin 1))
      = Cert.Spec.rowLoss (pts m c) (rowIn bi hbi p) := by
  rw [emit_apply, accAt_apply m c bi 7 hbi (by omega) p, ← Cert.Spec.nearest_eq_runMin]
  rfl

/-- The same at a grid point in the last column block. -/
theorem emit_at (c : Dev nD) (t : Fin cfg0.N) (h7 : t.val % 8 = 7) (p : Fin 1024) :
    emit (F := Ideal) (accAt (F := Ideal) m c t.val t.isLt) (ix2 p (0 : Fin 1))
      = Cert.Spec.rowLoss (pts m c) (rowIn (t.val / 8) (tdiv_lt t) p) := by
  have e : t.val = t.val / 8 * 8 + 7 := by omega
  have hlt : t.val / 8 * 8 + 7 < cfg0.N := lt_of_eq_of_lt e.symm t.isLt
  rw [accAt_congr m c e t.isLt hlt]
  exact emit_last m c (t.val / 8) (tdiv_lt t) p

/-- The entry a writing point leaves at the local index of row `p` is the column of losses at the global index
    (block row × 1024 + local row). -/
theorem block_entry (c : Dev nD) (t : Fin cfg0.N) (h7 : t.val % 8 = 7) (y : S1024x1.Idx) (p : Fin 1024)
    (hy0 : (y 0).val = p.val) (i : S8192x1.Idx) (hi : (i 0).val = t.val / 8 * 1024 + p.val) :
    emit (F := Ideal) (accAt (F := Ideal) m c t.val t.isLt) y = lossCol m c i := by
  have hy : y = ix2 p (0 : Fin 1) := by
    funext a
    match a with
    | ⟨0, _⟩ => exact Fin.ext hy0
    | ⟨1, _⟩ => exact Fin.ext (by have h : (y 1).val < 1 := (y 1).isLt; show (y 1).val = 0; omega)
  rw [hy, emit_at m c t h7 p]
  unfold lossCol
  refine congrArg (Cert.Spec.rowLoss (pts m c)) (Fin.ext ?_)
  show t.val / 8 * 1024 + p.val = (i 0).val
  rw [hi]

/-- What a writing point writes back is its block of the column of losses. -/
theorem flushed4_eq (c : Dev nD) (t : Fin cfg0.N) (hf : (cfg0.win 4).flush t = true) :
    (dats m 0 c).flushed 4 t = ((cfg0.win 4).blk t).view.read (Elt Ideal) (lossCol m c) := by
  have h7 : t.val % 8 = 7 := (flush0_4 t).mp hf
  show (cfg0.win 4).cut (grid0.coords t) ((dats m 0 c).after 4 t) = _
  rw [after_4]
  obtain ⟨e0, e1⟩ := idx4 t
  funext y
  show emit (F := Ideal) (accAt (F := Ideal) m c t.val t.isLt) y = lossCol m c (((cfg0.win 4).blk t).view.emb y)
  refine block_entry m c t h7 y ⟨(y 0).val, (y 0).isLt⟩ rfl _ ?_
  show win0_4.index t (0 : Fin 2) * 1024 + 1 * (y 0).val = t.val / 8 * 1024 + (y 0).val
  rw [e0]; omega

/-- An index of the column is in point `t`'s block iff each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v4).slice (win0_4.rect t)).set ↔ _
  rw [View.set_slice_whole, Rect.mem_set_unit]
  exact Iff.rfl

/-- Every row of the column is written: row `r` by the last column block of row block `r / 1024`. -/
theorem covered4 (i : S8192x1.Idx) :
    ∃ t : Fin cfg0.N, (cfg0.win 4).flush t = true ∧ i ∈ ((cfg0.win 4).blk t).view.set := by
  have hi0 : (i 0).val < 8192 := (i 0).isLt
  have hi1 : (i 1).val < 1 := (i 1).isLt
  have hlt : (i 0).val / 1024 * 8 + 7 < cfg0.N := lt_of_lt_of_eq (by omega : (i 0).val / 1024 * 8 + 7 < 64) N_0.symm
  obtain ⟨e0, e1⟩ := idx4 ⟨(i 0).val / 1024 * 8 + 7, hlt⟩
  refine ⟨⟨(i 0).val / 1024 * 8 + 7, hlt⟩, (flush0_4 _).mpr (by show ((i 0).val / 1024 * 8 + 7) % 8 = 7; omega), ?_⟩
  rw [mem_blk4]
  intro a
  match a with
  | ⟨0, _⟩ =>
    show win0_4.index ⟨(i 0).val / 1024 * 8 + 7, hlt⟩ (0 : Fin 2) * 1024 ≤ (i 0).val ∧ (i 0).val < win0_4.index ⟨(i 0).val / 1024 * 8 + 7, hlt⟩ (0 : Fin 2) * 1024 + 1024
    rw [e0]; show ((i 0).val / 1024 * 8 + 7) / 8 * 1024 ≤ (i 0).val ∧ (i 0).val < ((i 0).val / 1024 * 8 + 7) / 8 * 1024 + 1024; omega
  | ⟨1, _⟩ =>
    show win0_4.index ⟨(i 0).val / 1024 * 8 + 7, hlt⟩ (1 : Fin 2) * 1 ≤ (i 1).val ∧ (i 1).val < win0_4.index ⟨(i 0).val / 1024 * 8 + 7, hlt⟩ (1 : Fin 2) * 1 + 1
    rw [e1]; omega

/-- So the output column after the call is the column of losses. -/
theorem outArr_eq (c : Dev nD) : outArr (F := Ideal) m c = lossCol m c :=
  (dats m 0 c).arrAt_eq_of_cover 4 (lossCol m c) (flushed4_eq m c) covered4

/-- The output column after the call: entry `r` is the loss of point `r`. -/
theorem outArr_apply (c : Dev nD) (r : Fin 8192) :
    outArr (F := Ideal) m c (ix2 r (0 : Fin 1)) = Cert.Spec.rowLoss (pts m c) r := by
  rw [outArr_eq]; rfl

/-! ## The host operations after the call -/

/-- When the call returns, the output column's reference holds the written column. -/
theorem Vmid_out (c : Dev nD) : Vmid (F := Ideal) m c (Proc.devRef .tc main_v4) = outArr (F := Ideal) m c := by
  unfold Vmid; exact Function.update_self ..

/-- The written column as a function from the column's indices to the extended reals. -/
abbrev outCol (c : Dev nD) : S8192x1.Idx → EReal := outArr (F := Ideal) m c

/-- The sum of the whole output column is the sum of the losses over the points. -/
theorem sum_outCol (c : Dev nD) : ∑ i : S8192x1.Idx, outCol m c i = ∑ r : Fin 8192, Cert.Spec.rowLoss (pts m c) r := by
  rw [sum_idx2]
  refine Finset.sum_congr rfl fun r _ => ?_
  rw [Fin.sum_univ_one]
  exact outArr_apply m c r

/-- The program's result buffer at the end: the mean loss. -/
theorem kernel_value (c : Dev nD) :
    Vend (F := Ideal) m c (Proc.devRef .tc main_v7) = fun _ => Cert.Spec.loss (pts m c) := by
  show StableHlo.after hostOps1 (Vmid (F := Ideal) m c) (Proc.devRef .tc main_v7) = _
  after_results
  rw [Vmid_out]
  funext j
  show Ideal.ofBits .f32 0x3F800000#32 * Ideal.div (Ideal.hostReduceAdd reducesTo_S8192x1_S_d0_1 (outCol m c) (Ideal.ofBits .f32 0x00000000#32) j) (Ideal.ofBits .f32 0x46000000#32) = _
  rw [Ideal.hostReduceAdd_total reducesTo_S8192x1_S_d0_1 (fun b => b.elim0), sum_outCol]
  rfl

end Cert.KernelIdeal.Hand

end
-- ==== Proof.RefSide.lean ====
/-
  The reference program read index by index: its result, one extended real, is the mean nearest-neighbour loss
  `Cert.Spec.loss` of its input's entries.
-/
import proofs.«112455_j6511170421442_1_alg».proof.Proof.Gen.ReferenceIdeal.Read
import proofs.«112455_j6511170421442_1_alg».proof.Proof.Spec
import proofs.«112455_j6511170421442_1_alg».proof.Proof.LibMinReduce
import Idealize.ShloMosaic.Lib.IdealHost

noncomputable section

open scoped BigOperators

namespace Cert.RefLoss

open Idealize.ShloMosaic Idealize.ShloMosaic.ValueIdx Cert.ReferenceIdeal Cert.ReferenceIdeal.Read

/-- The row sums of squares: entry `r` of the first float sum is the squared length of point `r`. -/
theorem sqLen_at (x : (⟨S8192x512, .f32⟩ : BufTy).Contents (Elt Ideal)) (r : Fin 8192) :
    val_main_v1 (F := Ideal) x (ix1 r) = Cert.Spec.sqLen x r := by
  rw [val_main_v1_apply]
  have e : ∀ k : Fin 512, idx_main_v1 (ix1 r) k = ix2 r k :=
    fun k => funext fun a => match a with | ⟨0, _⟩ => rfl | ⟨1, _⟩ => rfl
  simp only [e, val_main_v0_apply, val_main_cst_apply, Ideal.mulf_def, Ideal.ofBits_def]
  rfl

/-- The product of the array with its transpose: entry `(r, c)` is the inner product of points `r` and `c`. -/
theorem inner_at (x : (⟨S8192x512, .f32⟩ : BufTy).Contents (Elt Ideal)) (r c : Fin 8192) :
    val_main_v3 (F := Ideal) x (ix2 r c) = Cert.Spec.inner x r c := by
  rw [val_main_v3_apply]
  have el : ∀ k : Fin 512, lidx_main_v3 (ix2 r c) k = ix2 r k :=
    fun k => funext fun a => match a with | ⟨0, _⟩ => rfl | ⟨1, _⟩ => rfl
  have er : ∀ k : Fin 512, idx_main_v2 (ridx_main_v3 (ix2 r c) k) = ix2 c k :=
    fun k => funext fun a => match a with | ⟨0, _⟩ => rfl | ⟨1, _⟩ => rfl
  simp only [val_main_v2_apply, el, er]
  rfl

/-- The clamped square root: entry `(r, c)` is the distance between points `r` and `c`. -/
theorem dist_at (x : (⟨S8192x512, .f32⟩ : BufTy).Contents (Elt Ideal)) (r c : Fin 8192) :
    val_main_v14 (F := Ideal) x (ix2 r c) = Cert.Spec.dist x r c := by
  rw [val_main_v14_apply, val_main_v13_apply, val_main_v11_apply, val_main_v8_apply, val_main_v10_apply,
    val_main_v6_apply, val_main_v7_apply, val_main_v4_apply, val_main_v5_apply, val_main_v9_apply,
    val_main_v12_apply, val_main_cst_0_apply, val_main_cst_1_apply]
  have e6 : idx_main_v4 (idx_main_v6 (ix2 r c)) = ix1 r := funext fun a => match a with | ⟨0, _⟩ => rfl
  have e7 : idx_main_v5 (idx_main_v7 (ix2 r c)) = ix1 c := funext fun a => match a with | ⟨0, _⟩ => rfl
  rw [e6, e7, sqLen_at, sqLen_at, inner_at]
  simp only [Ideal.addf_def, Ideal.subf_def, Ideal.mulf_def, Ideal.maximumf_def, Ideal.hostUnary_sqrt_def,
    Ideal.ofBits_def]
  rfl

/-- The diagonal test: the words compared are the two coordinates, each below 2³², so the test holds exactly on the
    diagonal. -/
theorem diag_at (r c : Fin 8192) : val_main_v19 (F := Ideal) (ix2 r c) = 1#1 ↔ r = c := by
  rw [val_main_v19_apply, val_main_v18_apply, val_main_v15_apply, val_main_v16_apply, val_main_v17_apply,
    val_main_c_apply]
  show IntOp.cmpi .eq (IntOp.addi (BitVec.ofNat 32 r.val) 0#32) (BitVec.ofNat 32 c.val) = 1#1 ↔ r = c
  show BitVec.ofBool (BitVec.ofNat 32 r.val + 0#32 == BitVec.ofNat 32 c.val) = 1#1 ↔ r = c
  rw [BitVec.add_zero]
  constructor
  · intro h
    have h2 : (BitVec.ofNat 32 r.val == BitVec.ofNat 32 c.val) = true := by
      cases hb : (BitVec.ofNat 32 r.val == BitVec.ofNat 32 c.val) with
      | true => rfl
      | false => rw [hb] at h; exact absurd h (by decide)
    have h3 := congrArg BitVec.toNat (eq_of_beq h2)
    simp only [BitVec.toNat_ofNat] at h3
    have hr := r.isLt
    have hc := c.isLt
    apply Fin.ext
    omega
  · rintro rfl
    rw [beq_self_eq_true]
    rfl

/-- The masked distances: entry `(r, c)` is +∞ on the diagonal and the distance off it. -/
theorem distOff_at (x : (⟨S8192x512, .f32⟩ : BufTy).Contents (Elt Ideal)) (r c : Fin 8192) :
    val_main_v20 (F := Ideal) x (ix2 r c) = Cert.Spec.distOff x r c := by
  rw [val_main_v20_apply]
  unfold Cert.Spec.distOff
  by_cases h : r = c
  · rw [(diag_at r c).2 h, select_one, if_pos h, val_main_call0_v1_apply, val_main_call0_v0_apply,
      val_main_cst_2_apply]
    rfl
  · rw [eq_zero_of_ne_one (mt (diag_at r c).1 h), select_zero, if_neg h, dist_at]

/-- The reduced index `r` with column `k` put back is `(r, k)`. -/
theorem lift_row (h : S8192x8192.Reduces [1] S8192) (r : Fin 8192) (k : Fin (S8192x8192.size 1)) :
    h.lift (ix1 r) k = ix2 r (⟨k.val, k.isLt⟩ : Fin 8192) := by
  funext a
  apply Fin.ext
  match a with
  | ⟨0, _⟩ => rfl
  | ⟨1, _⟩ => rfl

/-- The row minimum: entry `r` is the least masked distance of row `r`, folded from +∞. -/
theorem nearest_at (x : (⟨S8192x512, .f32⟩ : BufTy).Contents (Elt Ideal)) (r : Fin 8192) :
    val_main_v21 (F := Ideal) x (ix1 r) = Cert.Spec.nearest x r := by
  have h : S8192x8192.Reduces [1] S8192 := by decide
  unfold val_main_v21
  rw [Cert.LibMinReduce.hostReduce_minimumf_single _ _ _ h]
  unfold Cert.Spec.nearest
  rw [val_main_cst_3_apply]
  exact Finset.fold_congr fun k _ => (congrArg (val_main_v20 (F := Ideal) x) (lift_row h r k)).trans (distOff_at x r k)

/-- The losses: entry `r` is the loss of point `r`. -/
theorem rowLoss_at (x : (⟨S8192x512, .f32⟩ : BufTy).Contents (Elt Ideal)) (r : Fin 8192) :
    val_main_v25 (F := Ideal) x (ix1 r) = Cert.Spec.rowLoss x r := by
  rw [val_main_v25_apply, val_main_v24_apply, val_main_v23_apply, nearest_at, val_main_v22_apply,
    val_main_cst_4_apply]
  simp only [Ideal.hostNegf_def, Ideal.negf_def, Ideal.hostUnary_log_def, Ideal.addf_def, Ideal.ofBits_def]
  rfl

/-- A vector's indices are its one coordinate's range. -/
def rowEquiv : S8192.Idx ≃ Fin 8192 where
  toFun j := j 0
  invFun r := ix1 r
  left_inv j := (eq_ix1 j).symm
  right_inv _ := rfl

/-- The reference's result term, at the exact values, is the mean loss of the input's entries. -/
theorem ref_value (x : (⟨S8192x512, .f32⟩ : BufTy).Contents (Elt Ideal)) :
    val_main_v28 (F := Ideal) x = fun _ => Cert.Spec.loss x := by
  funext i
  rw [val_main_v28_apply, val_main_v27_apply, val_main_v26_apply, val_main_cst_7_apply, val_main_cst_6_apply,
    val_main_cst_5_apply]
  have hs : ∑ j : S8192.Idx, val_main_v25 (F := Ideal) x j = ∑ r : Fin 8192, Cert.Spec.rowLoss x r := by
    rw [← Equiv.sum_comp rowEquiv.symm]
    exact Finset.sum_congr rfl fun r _ => rowLoss_at x r
  rw [hs]
  simp only [Ideal.mulf_def, Ideal.hostDivf_def, Ideal.ofBits_def]
  rfl

end Cert.RefLoss

end
-- ==== Proof.lean ====
/-
  The certificate's claims, assembled.

  Both kernel programs — the word-level one and its reading over the extended reals — run to the end and leave the
  argument unchanged: the host operations, the pipelined call and the host operations after it, run as three
  segments (Proof/Bits/Launch.lean, Proof/Ideal/Launch.lean; one text, generic in the float instance). The
  reference is host operations only: its run is read back operation by operation. No operation was rewritten for
  the exact reading, so nothing is owed for it. Over the extended reals the kernel's result and the reference's are
  the same number, the mean over the 8192 points of −log (nearest-neighbour distance + ε): the kernel accumulates
  each row's minimum block by block from +∞ (Proof/Ideal/Result.lean), the reference takes it over the whole row at
  once (Proof/RefSide.lean), and `min` does not care (Proof/Algebra.lean).
-/
import proofs.«112455_j6511170421442_1_alg».proof.Defs
import proofs.«112455_j6511170421442_1_alg».proof.Proof.Gen.Kernel
import proofs.«112455_j6511170421442_1_alg».proof.Proof.Gen.KernelIdeal
import proofs.«112455_j6511170421442_1_alg».proof.Proof.Gen.ReferenceIdeal
import proofs.«112455_j6511170421442_1_alg».proof.Proof.Gen.Pre_finite_inputs
import proofs.«112455_j6511170421442_1_alg».proof.Proof.Gen.ReferenceIdeal.Run
import proofs.«112455_j6511170421442_1_alg».proof.Proof.Gen.ReferenceIdeal.Read
import proofs.«112455_j6511170421442_1_alg».proof.Proof.Bits.Launch
import proofs.«112455_j6511170421442_1_alg».proof.Proof.Ideal.Launch
import proofs.«112455_j6511170421442_1_alg».proof.Proof.Ideal.Result
import proofs.«112455_j6511170421442_1_alg».proof.Proof.RefSide

noncomputable section

namespace Cert.Proof

open Idealize.ShloMosaic Idealize.ShloMosaic.TcCoe Idealize.SL.Sem

/-- The word-level kernel program runs and leaves its argument unchanged. -/
theorem frame_kernel : Cert.frame_Kernel := fun m ρ _ => Cert.Kernel.Hand.frame m ρ

/-- So does its reading over the extended reals. -/
theorem frame_kernelIdeal : Cert.frame_KernelIdeal := fun m ρ _ => Cert.KernelIdeal.Hand.frame m ρ

/-- The reference runs and leaves its argument unchanged: its run read back, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the argument, both programs end with the mean
    nearest-neighbour loss of the argument in their result buffer. -/
theorem algebraic : Cert.algebraic_KernelIdeal_ReferenceIdeal := by
  intro m ρ m' ρ' _ hagree
  refine ⟨fun c => fun _ => Cert.Spec.loss (m ((c.tc : Thread Cert.KernelIdeal.nD Cert.KernelIdeal.τ).loc Cert.KernelIdeal.main_arg0)), ?_, ?_⟩
  · exact (θ_run Cert.KernelIdeal.defs _ _).mono
      (fun _ h c => ⟨(h c Cert.KernelIdeal.main_v7 rfl).trans (Cert.KernelIdeal.Hand.kernel_value m c),
        (h c Cert.KernelIdeal.main_arg0 rfl).trans (Cert.KernelIdeal.Hand.Vend_arg0 m c)⟩)
      (Cert.KernelIdeal.Hand.run_main m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v28_eq, Cert.RefLoss.ref_value, hagree c]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
